-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S11008x512 : Shape := ⟨2, ![11008, 512]⟩
abbrev S11008x4 : Shape := ⟨2, ![11008, 4]⟩
abbrev S11008x32 : Shape := ⟨2, ![11008, 32]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_

variable [Facts]

def fn {F : FTy → Type} [FloatOps F] (main_arg0 : FVec F S8x4096 .f32) (main_arg1 : IVec S11008x512 32) (main_arg2 : IVec S11008x4 32) (main_arg3 : FVec F S11008x32 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S11008x32 .f32 := Host.absf main_arg3
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  main_v8
-- ==== Kernel.lean ====
abbrev S8x4096 : Shape := ⟨2, ![8, 4096]⟩
abbrev S11008x512 : Shape := ⟨2, ![11008, 512]⟩
abbrev S11008x4 : Shape := ⟨2, ![11008, 4]⟩
abbrev S11008x32 : Shape := ⟨2, ![11008, 32]⟩
abbrev S_ : Shape := ⟨0, ![]⟩
abbrev S11264x512 : Shape := ⟨2, ![11264, 512]⟩
abbrev S11264x4 : Shape := ⟨2, ![11264, 4]⟩
abbrev S11264x32 : Shape := ⟨2, ![11264, 32]⟩
abbrev S8 : Shape := ⟨1, ![8]⟩
abbrev S11264x4x1 : Shape := ⟨3, ![11264, 4, 1]⟩
abbrev S1x1x8 : Shape := ⟨3, ![1, 1, 8]⟩
abbrev S11264x4x8 : Shape := ⟨3, ![11264, 4, 8]⟩
abbrev S8x512x8 : Shape := ⟨3, ![8, 512, 8]⟩
abbrev S8x8x512 : Shape := ⟨3, ![8, 8, 512]⟩
abbrev S8x32x128 : Shape := ⟨3, ![8, 32, 128]⟩
abbrev S8x32 : Shape := ⟨2, ![8, 32]⟩
abbrev S512 : Shape := ⟨1, ![512]⟩
abbrev S32 : Shape := ⟨1, ![32]⟩
abbrev S32x1 : Shape := ⟨2, ![32, 1]⟩
abbrev S1x512 : Shape := ⟨2, ![1, 512]⟩
abbrev S32x512 : Shape := ⟨2, ![32, 512]⟩
abbrev S8x11264 : Shape := ⟨2, ![8, 11264]⟩
abbrev S1024x512 : Shape := ⟨2, ![1024, 512]⟩
abbrev S1024x32 : Shape := ⟨2, ![1024, 32]⟩
abbrev S8x1024 : Shape := ⟨2, ![8, 1024]⟩
abbrev S8x512 : Shape := ⟨2, ![8, 512]⟩
abbrev S8x11008 : Shape := ⟨2, ![8, 11008]⟩

abbrev nBuf : Space → Nat
  | .hbm => 63
  | .vmem => 11
  | .smem => 0
  | _ => 0

abbrev bufTy : (tb : Table) → Fin (tcTables nBuf tb) → BufTy
  | .hbm, ⟨0, _⟩ => ⟨S8x4096, .f32⟩
  | .hbm, ⟨1, _⟩ => ⟨S11008x512, .i32⟩
  | .hbm, ⟨2, _⟩ => ⟨S11008x4, .i32⟩
  | .hbm, ⟨3, _⟩ => ⟨S11008x32, .f32⟩
  | .hbm, ⟨4, _⟩ => ⟨S_, .i32⟩
  | .hbm, ⟨5, _⟩ => ⟨S_, .i32⟩
  | .hbm, ⟨6, _⟩ => ⟨S11264x512, .i32⟩
  | .hbm, ⟨7, _⟩ => ⟨S_, .i32⟩
  | .hbm, ⟨8, _⟩ => ⟨S_, .i32⟩
  | .hbm, ⟨9, _⟩ => ⟨S11264x4, .i32⟩
  | .hbm, ⟨10, _⟩ => ⟨S_, .i32⟩
  | .hbm, ⟨11, _⟩ => ⟨S_, .f32⟩
  | .hbm, ⟨12, _⟩ => ⟨S11264x32, .f32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S11264x4x1, .i32⟩
  | .hbm, ⟨18, _⟩ => ⟨S1x1x8, .i32⟩
  | .hbm, ⟨19, _⟩ => ⟨S11264x4x8, .i32⟩
  | .hbm, ⟨20, _⟩ => ⟨S11264x4x8, .i32⟩
  | .hbm, ⟨21, _⟩ => ⟨S11264x4x8, .i32⟩
  | .hbm, ⟨22, _⟩ => ⟨S_, .i32⟩
  | .hbm, ⟨23, _⟩ => ⟨S11264x4x8, .i32⟩
  | .hbm, ⟨24, _⟩ => ⟨S11264x4x8, .i32⟩
  | .hbm, ⟨25, _⟩ => ⟨S11264x32, .i32⟩
  | .hbm, ⟨26, _⟩ => ⟨S11264x32, .f32⟩
  | .hbm, ⟨27, _⟩ => ⟨S11264x32, .f32⟩
  | .hbm, ⟨28, _⟩ => ⟨S8x512x8, .f32⟩
  | .hbm, ⟨29, _⟩ => ⟨S8x8x512, .f32⟩
  | .hbm, ⟨30, _⟩ => ⟨S8x4096, .f32⟩
  | .hbm, ⟨31, _⟩ => ⟨S8x4096, .bf16⟩
  | .hbm, ⟨32, _⟩ => ⟨S8x32x128, .f32⟩
  | .hbm, ⟨33, _⟩ => ⟨S_, .f32⟩
  | .hbm, ⟨34, _⟩ => ⟨S8x32, .f32⟩
  | .hbm, ⟨35, _⟩ => ⟨S512, .i32⟩
  | .hbm, ⟨36, _⟩ => ⟨S32, .i32⟩
  | .hbm, ⟨37, _⟩ => ⟨S32x1, .i32⟩
  | .hbm, ⟨38, _⟩ => ⟨S1x512, .i32⟩
  | .hbm, ⟨39, _⟩ => ⟨S_, .i32⟩
  | .hbm, ⟨40, _⟩ => ⟨S_, .i32⟩
  | .hbm, ⟨41, _⟩ => ⟨S1x512, .i32⟩
  | .hbm, ⟨42, _⟩ => ⟨S1x512, .i32⟩
  | .hbm, ⟨43, _⟩ => ⟨S1x512, .i32⟩
  | .hbm, ⟨44, _⟩ => ⟨S_, .i32⟩
  | .hbm, ⟨45, _⟩ => ⟨S1x512, .i32⟩
  | .hbm, ⟨46, _⟩ => ⟨S1x512, .i1⟩
  | .hbm, ⟨47, _⟩ => ⟨S1x512, .i32⟩
  | .hbm, ⟨48, _⟩ => ⟨S1x512, .i32⟩
  | .hbm, ⟨49, _⟩ => ⟨S_, .i32⟩
  | .hbm, ⟨50, _⟩ => ⟨S1x512, .i32⟩
  | .hbm, ⟨51, _⟩ => ⟨S1x512, .i1⟩
  | .hbm, ⟨52, _⟩ => ⟨S1x512, .i1⟩
  | .hbm, ⟨53, _⟩ => ⟨S_, .i32⟩
  | .hbm, ⟨54, _⟩ => ⟨S1x512, .i32⟩
  | .hbm, ⟨55, _⟩ => ⟨S1x512, .i32⟩
  | .hbm, ⟨56, _⟩ => ⟨S1x512, .i32⟩
  | .hbm, ⟨57, _⟩ => ⟨S32x512, .i32⟩
  | .hbm, ⟨58, _⟩ => ⟨S32x512, .i32⟩
  | .hbm, ⟨59, _⟩ => ⟨S32x512, .i1⟩
  | .hbm, ⟨60, _⟩ => ⟨S32x512, .f32⟩
  | .hbm, ⟨61, _⟩ => ⟨S8x11264, .f32⟩
  | .hbm, ⟨62, _⟩ => ⟨S8x11008, .f32⟩
  | .local _ .vmem, ⟨0, _⟩ => ⟨S8x4096, .bf16⟩
  | .local _ .vmem, ⟨1, _⟩ => ⟨S8x32, .f32⟩
  | .local _ .vmem, ⟨2, _⟩ => ⟨S1024x512, .i32⟩
  | .local _ .vmem, ⟨3, _⟩ => ⟨S1024x512, .i32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S32x512, .f32⟩
  | .local _ .vmem, ⟨9, _⟩ => ⟨S8x1024, .f32⟩
  | .local _ .vmem, ⟨10, _⟩ => ⟨S8x1024, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_c : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_0 : Ref sig .tc := ⟨.hbm, 53, rfl⟩
abbrev main_call3_v12 : Ref sig .tc := ⟨.hbm, 54, rfl⟩
abbrev main_call3_v13 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S11008x512_S11264x512_02560_000 : S11008x512.Pads (![0, 0] : Fin 2 → Nat) ![256, 0] ![0, 0] S11264x512
  h_S_ : 0 < S_.numel
  pads_S11008x4_S11264x4_02560_000 : S11008x4.Pads (![0, 0] : Fin 2 → Nat) ![256, 0] ![0, 0] S11264x4
  pads_S11008x32_S11264x32_02560_000 : S11008x32.Pads (![0, 0] : Fin 2 → Nat) ![256, 0] ![0, 0] S11264x32
  bcast_S_S8 : S_.BroadcastsInDim S8 (![] : Fin 0 → Fin S8.rank)
  bcast_S11264x4_S11264x4x1_0_1 : S11264x4.BroadcastsInDim S11264x4x1 (![0, 1] : Fin 2 → Fin S11264x4x1.rank)
  bcast_S8_S1x1x8_2 : S8.BroadcastsInDim S1x1x8 (![2] : Fin 1 → Fin S1x1x8.rank)
  bcast_S11264x4x1_S11264x4x8_0_1_2 : S11264x4x1.BroadcastsInDim S11264x4x8 (![0, 1, 2] : Fin 3 → Fin S11264x4x8.rank)
  bcast_S1x1x8_S11264x4x8_0_1_2 : S1x1x8.BroadcastsInDim S11264x4x8 (![0, 1, 2] : Fin 3 → Fin S11264x4x8.rank)
  bcast_S_S11264x4x8 : S_.BroadcastsInDim S11264x4x8 (![] : Fin 0 → Fin S11264x4x8.rank)
  shapeCasts_S11264x4x8_S11264x32 : S11264x4x8.ShapeCasts S11264x32
  shapeCasts_S8x4096_S8x512x8 : S8x4096.ShapeCasts S8x512x8
  transposes_S8x512x8_S8x8x512_0_2_1 : S8x512x8.Transposes [0, 2, 1] S8x8x512
  shapeCasts_S8x8x512_S8x4096 : S8x8x512.ShapeCasts S8x4096
  bitsLt_bf16_f32 : FTy.bits .bf16 < FTy.bits .f32
  shapeCasts_S8x4096_S8x32x128 : S8x4096.ShapeCasts S8x32x128
  reducesTo_S8x32x128_S8x32_d2 : S8x32x128.ReducesTo [2] S8x32
  bcast_S32_S32x1_0 : S32.BroadcastsInDim S32x1 (![0] : Fin 1 → Fin S32x1.rank)
  bcast_S512_S1x512_1 : S512.BroadcastsInDim S1x512 (![1] : Fin 1 → Fin S1x512.rank)
  bcast_S_S1x512 : S_.BroadcastsInDim S1x512 (![] : Fin 0 → Fin S1x512.rank)
  bcast_S32x1_S32x512_0_1 : S32x1.BroadcastsInDim S32x512 (![0, 1] : Fin 2 → Fin S32x512.rank)
  bcast_S1x512_S32x512_0_1 : S1x512.BroadcastsInDim S32x512 (![0, 1] : Fin 2 → Fin S32x512.rank)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S8x4096_S8x512_0_0 : ∀ a, (![0, 0] : Fin 2 → Nat) a + S8x512.size a ≤ S8x4096.size a
  h_S8x512 : 0 < S8x512.numel
  shapeCasts_S8x512_S8x512 : S8x512.ShapeCasts S8x512
  inb_S8x4096_S8x512_0_512 : ∀ a, (![0, 512] : Fin 2 → Nat) a + S8x512.size a ≤ S8x4096.size a
  inb_S8x4096_S8x512_0_1024 : ∀ a, (![0, 1024] : Fin 2 → Nat) a + S8x512.size a ≤ S8x4096.size a
  inb_S8x4096_S8x512_0_1536 : ∀ a, (![0, 1536] : Fin 2 → Nat) a + S8x512.size a ≤ S8x4096.size a
  inb_S8x4096_S8x512_0_2048 : ∀ a, (![0, 2048] : Fin 2 → Nat) a + S8x512.size a ≤ S8x4096.size a
  inb_S8x4096_S8x512_0_2560 : ∀ a, (![0, 2560] : Fin 2 → Nat) a + S8x512.size a ≤ S8x4096.size a
  inb_S8x4096_S8x512_0_3072 : ∀ a, (![0, 3072] : Fin 2 → Nat) a + S8x512.size a ≤ S8x4096.size a
  inb_S8x4096_S8x512_0_3584 : ∀ a, (![0, 3584] : Fin 2 → Nat) a + S8x512.size a ≤ S8x4096.size a
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S8x1024_S8x1024_0_0 : ∀ a, (![0, 0] : Fin 2 → Nat) a + S8x1024.size a ≤ S8x1024.size a
  h_S8x1024 : 0 < S8x1024.numel
  slices_S8x11264_S8x11008_0_0 : S8x11264.Slices ![0, 0] S8x11008
  dot_S1024x32_S32x512_S1024x512_1_0_0_1_n_n_wf : DotDims.WF S1024x32 S32x512 S1024x512 [1] [0] [0] [1] [] []
  dot_S8x512_S1024x512_S8x1024_1_1_0_0_n_n_wf : DotDims.WF S8x512 S1024x512 S8x1024 [1] [1] [0] [0] [] []
  dot_S8x32_S1024x32_S8x1024_1_1_0_0_n_n_wf : DotDims.WF S8x32 S1024x32 S8x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .bf16 = 32 ∨ (Rect.block (s := S8x4096) S8x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S8x32.size a
  hwx0_1 : ∀ i : grid0.Coords, EltTy.bits .f32 = 32 ∨ (Rect.block (s := S8x32) S8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S11264x512.size a
  hwx0_2 : ∀ i : grid0.Coords, EltTy.bits .i32 = 32 ∨ (Rect.block (s := S11264x512) S1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S11264x32.size a
  hwx0_3 : ∀ i : grid0.Coords, EltTy.bits .f32 = 32 ∨ (Rect.block (s := S11264x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S11264x32.size a
  hwx0_4 : ∀ i : grid0.Coords, EltTy.bits .f32 = 32 ∨ (Rect.block (s := S11264x32) S1024x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x512.size a ≤ S32x512.size a
  hwx0_5 : ∀ i : grid0.Coords, EltTy.bits .f32 = 32 ∨ (Rect.block (s := S32x512) S32x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1024.size a ≤ S8x11264.size a
  hwx0_6 : ∀ i : grid0.Coords, EltTy.bits .f32 = 32 ∨ (Rect.block (s := S8x11264) S8x1024.size (cc0_transform_6 i) (hinb0_6 i)).WholeWords (EltTy.packing .f32)

variable [Facts₀]

def dot_S1024x32_S32x512_S1024x512_1_0_0_1_n_n : DotDims S1024x32 S32x512 S1024x512 where
  lhsContracting := [1]
  rhsContracting := [0]
  lhsNonContracting := [0]
  rhsNonContracting := [1]
  lhsBatch := []
  rhsBatch := []
  wf := dot_S1024x32_S32x512_S1024x512_1_0_0_1_n_n_wf
def dot_S8x512_S1024x512_S8x1024_1_1_0_0_n_n : DotDims S8x512 S1024x512 S8x1024 where
  lhsContracting := [1]
  rhsContracting := [1]
  lhsNonContracting := [0]
  rhsNonContracting := [0]
  lhsBatch := []
  rhsBatch := []
  wf := dot_S8x512_S1024x512_S8x1024_1_1_0_0_n_n_wf
def dot_S8x32_S1024x32_S8x1024_1_1_0_0_n_n : DotDims S8x32 S1024x32 S8x1024 where
  lhsContracting := [1]
  rhsContracting := [1]
  lhsNonContracting := [0]
  rhsNonContracting := [0]
  lhsBatch := []
  rhsBatch := []
  wf := dot_S8x32_S1024x32_S8x1024_1_1_0_0_n_n_wf

abbrev win0_0 : Pipeline.Window sig grid0 :=
  Pipeline.Window.ofSpec (Memref.whole main_v19) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v21) S8x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S32x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S8x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096 : Shape := ⟨2, ![8, 4096]⟩
abbrev S11008x512 : Shape := ⟨2, ![11008, 512]⟩
abbrev S11008x4 : Shape := ⟨2, ![11008, 4]⟩
abbrev S11008x32 : Shape := ⟨2, ![11008, 32]⟩
abbrev S8 : Shape := ⟨1, ![8]⟩
abbrev S_ : Shape := ⟨0, ![]⟩
abbrev S11008x512x1 : Shape := ⟨3, ![11008, 512, 1]⟩
abbrev S1x1x8 : Shape := ⟨3, ![1, 1, 8]⟩
abbrev S11008x512x8 : Shape := ⟨3, ![11008, 512, 8]⟩
abbrev S11008x4096 : Shape := ⟨2, ![11008, 4096]⟩
abbrev S11008x4x1 : Shape := ⟨3, ![11008, 4, 1]⟩
abbrev S11008x4x8 : Shape := ⟨3, ![11008, 4, 8]⟩
abbrev S4096 : Shape := ⟨1, ![4096]⟩
abbrev S4096x1 : Shape := ⟨2, ![4096, 1]⟩
abbrev S8x11008 : Shape := ⟨2, ![8, 11008]⟩

abbrev nBuf : Space → Nat
  | .hbm => 72
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S11008x512, .i32⟩
  | .hbm, ⟨2, _⟩ => ⟨S11008x4, .i32⟩
  | .hbm, ⟨3, _⟩ => ⟨S11008x32, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S11008x512x1, .i32⟩
  | .hbm, ⟨9, _⟩ => ⟨S1x1x8, .i32⟩
  | .hbm, ⟨10, _⟩ => ⟨S11008x512x8, .i32⟩
  | .hbm, ⟨11, _⟩ => ⟨S11008x512x8, .i32⟩
  | .hbm, ⟨12, _⟩ => ⟨S11008x512x8, .i32⟩
  | .hbm, ⟨13, _⟩ => ⟨S_, .i32⟩
  | .hbm, ⟨14, _⟩ => ⟨S11008x512x8, .i32⟩
  | .hbm, ⟨15, _⟩ => ⟨S11008x512x8, .i32⟩
  | .hbm, ⟨16, _⟩ => ⟨S11008x4096, .i32⟩
  | .hbm, ⟨17, _⟩ => ⟨S11008x4096, .f32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S11008x4x1, .i32⟩
  | .hbm, ⟨23, _⟩ => ⟨S1x1x8, .i32⟩
  | .hbm, ⟨24, _⟩ => ⟨S11008x4x8, .i32⟩
  | .hbm, ⟨25, _⟩ => ⟨S11008x4x8, .i32⟩
  | .hbm, ⟨26, _⟩ => ⟨S11008x4x8, .i32⟩
  | .hbm, ⟨27, _⟩ => ⟨S_, .i32⟩
  | .hbm, ⟨28, _⟩ => ⟨S11008x4x8, .i32⟩
  | .hbm, ⟨29, _⟩ => ⟨S11008x4x8, .i32⟩
  | .hbm, ⟨30, _⟩ => ⟨S11008x32, .i32⟩
  | .hbm, ⟨31, _⟩ => ⟨S11008x32, .f32⟩
  | .hbm, ⟨32, _⟩ => ⟨S4096, .i32⟩
  | .hbm, ⟨33, _⟩ => ⟨S_, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S11008x4096, .f32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S11008x4096, .f32⟩
  | .hbm, ⟨69, _⟩ => ⟨S11008x4096, .f32⟩
  | .hbm, ⟨70, _⟩ => ⟨S11008x4096, .f32⟩
  | .hbm, ⟨71, _⟩ => ⟨S8x11008, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v25 : Ref sig .tc := ⟨.hbm, 50, rfl⟩
abbrev main_c_4 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S11008x512_S11008x512x1_0_1 : S11008x512.BroadcastsInDim S11008x512x1 (![0, 1] : Fin 2 → Fin S11008x512x1.rank)
  bcast_S8_S1x1x8_2 : S8.BroadcastsInDim S1x1x8 (![2] : Fin 1 → Fin S1x1x8.rank)
  bcast_S11008x512x1_S11008x512x8_0_1_2 : S11008x512x1.BroadcastsInDim S11008x512x8 (![0, 1, 2] : Fin 3 → Fin S11008x512x8.rank)
  bcast_S1x1x8_S11008x512x8_0_1_2 : S1x1x8.BroadcastsInDim S11008x512x8 (![0, 1, 2] : Fin 3 → Fin S11008x512x8.rank)
  bcast_S_S11008x512x8 : S_.BroadcastsInDim S11008x512x8 (![] : Fin 0 → Fin S11008x512x8.rank)
  shapeCasts_S11008x512x8_S11008x4096 : S11008x512x8.ShapeCasts S11008x4096
  bcast_S11008x4_S11008x4x1_0_1 : S11008x4.BroadcastsInDim S11008x4x1 (![0, 1] : Fin 2 → Fin S11008x4x1.rank)
  bcast_S11008x4x1_S11008x4x8_0_1_2 : S11008x4x1.BroadcastsInDim S11008x4x8 (![0, 1, 2] : Fin 3 → Fin S11008x4x8.rank)
  bcast_S1x1x8_S11008x4x8_0_1_2 : S1x1x8.BroadcastsInDim S11008x4x8 (![0, 1, 2] : Fin 3 → Fin S11008x4x8.rank)
  bcast_S_S11008x4x8 : S_.BroadcastsInDim S11008x4x8 (![] : Fin 0 → Fin S11008x4x8.rank)
  shapeCasts_S11008x4x8_S11008x32 : S11008x4x8.ShapeCasts S11008x32
  bcast_S_S4096 : S_.BroadcastsInDim S4096 (![] : Fin 0 → Fin S4096.rank)
  bcast_S4096_S4096x1_0 : S4096.BroadcastsInDim S4096x1 (![0] : Fin 1 → Fin S4096x1.rank)
  gather_S11008x32_S4096x1_S11008x4096_0_1_n_n_1_1_110081_wf : GatherDims.WF S11008x32 S4096x1 S11008x4096 [0] [1] [] [1] [] 1 ![11008, 1]
  dot_S8x4096_S11008x4096_S8x11008_1_1_0_0_n_n_wf : DotDims.WF S8x4096 S11008x4096 S8x11008 [1] [1] [0] [0] [] []

variable [Facts₀]

def gather_S11008x32_S4096x1_S11008x4096_0_1_n_n_1_1_110081 : GatherDims S11008x32 S4096x1 S11008x4096 where
  offsetDims := [0]
  collapsedSliceDims := [1]
  operandBatchingDims := []
  startIndicesBatchingDims := []
  startIndexMap := [1]
  indexVectorDim := 1
  sliceSizes := ![11008, 1]
  wf := gather_S11008x32_S4096x1_S11008x4096_0_1_n_n_1_1_110081_wf
def dot_S8x4096_S11008x4096_S8x11008_1_1_0_0_n_n : DotDims S8x4096 S11008x4096 S8x11008 where
  lhsContracting := [1]
  rhsContracting := [1]
  lhsNonContracting := [0]
  rhsNonContracting := [0]
  lhsBatch := []
  rhsBatch := []
  wf := dot_S8x4096_S11008x4096_S8x11008_1_1_0_0_n_n_wf

class Facts : Prop extends Facts₀ where

variable [Facts]
-- ==== Proof.Spec.lean ====
/-
  A 4-bit grouped-quantised matrix product, as mathematics.

  The weights arrive packed: word p of output row o holds the eight 4-bit values of the logical input columns
  8p, 8p+1, …, 8p+7 (value i in bits 4i … 4i+3). The zero points arrive packed the same way, eight groups to a
  word; group g covers the 128 input columns 128g … 128g+127 and has one scale and one zero point per output row.
  The product is  out[a, o] = Σ_k x[a, k] · ((q[o, k] − z[o, k/128]) · s[o, k/128]).

  Two arrangements of this sum are named here. `Gat` is the sum as written, column by column. `bodyVal` is the
  arrangement by nibble planes: for each plane i the sum over words p of x[a, 8p+i] · (q_i[o, p] · s'[o, p]), where
  s'[o, p] = Σ_g s[o, g] · S[g, p] spreads the scales over words through a 0/1 selector S, the eight planes added in
  turn onto zero, and then ONE correction Σ_g (Σ_{k in group g} x[a, k]) · (z[o, g] · s[o, g]) subtracted. They agree
  when x and s are finite, by distributivity (which fails at infinities: hence the hypothesis).
-/
import Idealize.ShloMosaic.PureOps.Ideal
import Idealize.ShloMosaic.Lib.ValueIdx

noncomputable section

namespace Cert.W4

open Idealize.ShloMosaic Idealize.ShloMosaic.ValueIdx

/-! ## Shapes of the four arguments and of the result -/

abbrev SX : Shape := ⟨2, ![8, 4096]⟩
abbrev SQW : Shape := ⟨2, ![11008, 512]⟩
abbrev SQZ : Shape := ⟨2, ![11008, 4]⟩
abbrev SSC : Shape := ⟨2, ![11008, 32]⟩
abbrev SOUT : Shape := ⟨2, ![8, 11008]⟩

/-! ## Nibbles -/

/-- Nibble i of a word: the word shifted right (arithmetically) by 4i, masked to four bits. -/
def nibAt (w : BitVec 32) (i : Fin 8) : BitVec 32 := (w.sshiftRight' (BitVec.ofNat 32 (4 * i.val))) &&& 15#32

/-- Its value, a number in 0 … 15, as an extended real. -/
def nibE (w : BitVec 32) (i : Fin 8) : EReal := (((nibAt w i).toInt : ℝ) : EReal)

/-! ## Positions -/

/-- The word holding logical column k. -/
def wordOf (k : Fin 4096) : Fin 512 := ⟨k.val / 8, by have := k.isLt; omega⟩
/-- The nibble of that word holding logical column k. -/
def nibOf (k : Fin 4096) : Fin 8 := ⟨k.val % 8, Nat.mod_lt _ (by decide)⟩
/-- The group of logical column k. -/
def groupOf (k : Fin 4096) : Fin 32 := ⟨k.val / 128, by have := k.isLt; omega⟩
/-- The word holding group g's zero point. -/
def zwordOf (g : Fin 32) : Fin 4 := ⟨g.val / 8, by have := g.isLt; omega⟩
/-- The nibble of that word holding group g's zero point. -/
def znibOf (g : Fin 32) : Fin 8 := ⟨g.val % 8, Nat.mod_lt _ (by decide)⟩
/-- The logical column held by nibble i of word p. -/
def colOf (i : Fin 8) (p : Fin 512) : Fin 4096 := ⟨8 * p.val + i.val, by have := i.isLt; have := p.isLt; omega⟩
/-- Where plane i, word p sits in the plane-by-plane rearrangement of a row of x. -/
def planeCol (i : Fin 8) (p : Fin 512) : Fin 4096 := ⟨512 * i.val + p.val, by have := i.isLt; have := p.isLt; omega⟩
/-- Column t of group g. -/
def groupCol (g : Fin 32) (t : Fin 128) : Fin 4096 := ⟨128 * g.val + t.val, by have := g.isLt; have := t.isLt; omega⟩
/-- The group of word p (sixteen words to a group). -/
def wgroupOf (p : Fin 512) : Fin 32 := ⟨p.val / 16, by have := p.isLt; omega⟩
/-- Output row o among the 11264 rows of the padded arrays. -/
def padRow (o : Fin 11008) : Fin 11264 := ⟨o.val, by have := o.isLt; omega⟩
/-- The tile of 1024 rows that holds output row o. -/
def tileOf (o : Fin 11008) : Fin 11 := ⟨o.val / 1024, by have := o.isLt; omega⟩
/-- Output row o's position inside its tile. -/
def inTile (o : Fin 11008) : Fin 1024 := ⟨o.val % 1024, Nat.mod_lt _ (by decide)⟩
/-- Row j of tile t among the 11264 padded rows. -/
def tileRow (t : Fin 11) (j : Fin 1024) : Fin 11264 := ⟨1024 * t.val + j.val, by have := t.isLt; have := j.isLt; omega⟩

/-! ## The product, column by column -/

/-- The quantised weight at row o, logical column k. -/
def qE (qw : SQW.Idx → BitVec 32) (o : Fin 11008) (k : Fin 4096) : EReal := nibE (qw (ix2 o (wordOf k))) (nibOf k)
/-- The zero point at row o, group g. -/
def zpE (qz : SQZ.Idx → BitVec 32) (o : Fin 11008) (g : Fin 32) : EReal := nibE (qz (ix2 o (zwordOf g))) (znibOf g)

/-- out[a, o] as the sum over logical columns. -/
def Gat (x : SX.Idx → EReal) (qw : SQW.Idx → BitVec 32) (qz : SQZ.Idx → BitVec 32) (sc : SSC.Idx → EReal)
    (a : Fin 8) (o : Fin 11008) : EReal :=
  ∑ k : Fin 4096, x (ix2 a k) * ((qE qw o k - zpE qz o (groupOf k)) * sc (ix2 o (groupOf k)))

/-- The whole result array. -/
def G (x : SX.Idx → EReal) (qw : SQW.Idx → BitVec 32) (qz : SQZ.Idx → BitVec 32) (sc : SSC.Idx → EReal) :
    SOUT.Idx → EReal :=
  fun j => Gat x qw qz sc (j 0) (j 1)

/-! ## The product, plane by plane -/

/-- Plane i's contribution for one output row: Σ_p xp i p · (q_i p · Σ_g s g · S g p). -/
def planeDot (xp : Fin 8 → Fin 512 → EReal) (q : Fin 512 → BitVec 32) (s : Fin 32 → EReal)
    (S : Fin 32 → Fin 512 → EReal) (i : Fin 8) : EReal :=
  ∑ p : Fin 512, xp i p * (nibE (q p) i * ∑ g : Fin 32, s g * S g p)

/-- One entry of the plane-by-plane arrangement: the eight planes added in turn onto zero, minus the correction.
    `xp i p`: the row of x rearranged plane by plane; `xs g`: its group sums; `q`: the output row's packed words;
    `s`, `zs`: the output row's scales and zero points times scales; `S`: the group selector. -/
def bodyVal (xp : Fin 8 → Fin 512 → EReal) (xs : Fin 32 → EReal) (q : Fin 512 → BitVec 32) (s zs : Fin 32 → EReal)
    (S : Fin 32 → Fin 512 → EReal) : EReal :=
  ((((((((0 + planeDot xp q s S 0) + planeDot xp q s S 1) + planeDot xp q s S 2) + planeDot xp q s S 3)
    + planeDot xp q s S 4) + planeDot xp q s S 5) + planeDot xp q s S 6) + planeDot xp q s S 7)
    - ∑ g : Fin 32, xs g * zs g

/-- The group selector: 1 where word p belongs to group g, else 0. -/
def onehot (g : Fin 32) (p : Fin 512) : EReal := if g.val = p.val / 16 then 1 else 0

/-- Group g's sum of row a of x (onto an initial zero, as a host sum is read). -/
def xsumE (x : SX.Idx → EReal) (a : Fin 8) (g : Fin 32) : EReal := 0 + ∑ t : Fin 128, x (ix2 a (groupCol g t))

/-- out[a, o] in the plane-by-plane arrangement, from the four argument arrays. -/
def Kat (x : SX.Idx → EReal) (qw : SQW.Idx → BitVec 32) (qz : SQZ.Idx → BitVec 32) (sc : SSC.Idx → EReal)
    (a : Fin 8) (o : Fin 11008) : EReal :=
  bodyVal (fun i p => x (ix2 a (colOf i p))) (fun g => xsumE x a g) (fun p => qw (ix2 o p))
    (fun g => sc (ix2 o g)) (fun g => zpE qz o g * sc (ix2 o g)) onehot

/-- The whole result array in that arrangement. -/
def K (x : SX.Idx → EReal) (qw : SQW.Idx → BitVec 32) (qz : SQZ.Idx → BitVec 32) (sc : SSC.Idx → EReal) :
    SOUT.Idx → EReal :=
  fun j => Kat x qw qz sc (j 0) (j 1)

end Cert.W4

end
-- ==== Proof.Algebra.lean ====
/-
  The two arrangements of the quantised product agree on finite data.

  Over the reals: the 0/1 selector picks out the scale of a word's group; the columns 8p+i (i < 8, p < 512) are all the
  4096 columns, once each, and column 8p+i lies in group p/16; the columns 128g+t (g < 32, t < 128) are all the columns,
  once each, and column 128g+t lies in group g. So the sum over columns of x·((q − z)·s) splits, by distributivity, into
  the plane-by-plane sum of x·(q·s) minus the group-by-group sum of (Σ x)·(z·s). Finite extended reals are real
  numbers, and on them sums, products and differences are the reals' own.
-/
import proofs.«421893_j46686294507979_3_alg».proof.Proof.Spec
import Mathlib.Algebra.BigOperators.Fin
import Mathlib.Logic.Equiv.Fin.Basic

noncomputable section

namespace Cert.W4

open Idealize.ShloMosaic Idealize.ShloMosaic.ValueIdx

/-! ## Coercion of a finite sum -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Positions -/

theorem wordOf_colOf (i : Fin 8) (p : Fin 512) : wordOf (colOf i p) = p := by
  apply Fin.ext; have := i.isLt; simp only [wordOf, colOf]; omega
theorem nibOf_colOf (i : Fin 8) (p : Fin 512) : nibOf (colOf i p) = i := by
  apply Fin.ext; have := i.isLt; simp only [nibOf, colOf]; omega
theorem groupOf_colOf (i : Fin 8) (p : Fin 512) : groupOf (colOf i p) = wgroupOf p := by
  apply Fin.ext; have := i.isLt; simp only [groupOf, colOf, wgroupOf]; omega
theorem groupOf_groupCol (g : Fin 32) (t : Fin 128) : groupOf (groupCol g t) = g := by
  apply Fin.ext; have := t.isLt; simp only [groupOf, groupCol]; omega

/-- Every column is nibble i of word p for exactly one (p, i). -/
def colEquiv : Fin 512 × Fin 8 ≃ Fin 4096 where
  toFun pi := colOf pi.2 pi.1
  invFun k := (wordOf k, nibOf k)
  left_inv pi := Prod.ext (wordOf_colOf pi.2 pi.1) (nibOf_colOf pi.2 pi.1)
  right_inv k := by apply Fin.ext; show 8 * (k.val / 8) + k.val % 8 = k.val; omega

/-- Every column is column t of group g for exactly one (g, t). -/
def groupEquiv : Fin 32 × Fin 128 ≃ Fin 4096 where
  toFun gt := groupCol gt.1 gt.2
  invFun k := (groupOf k, ⟨k.val % 128, Nat.mod_lt _ (by decide)⟩)
  left_inv gt := by
    have := gt.2.isLt
    refine Prod.ext (groupOf_groupCol gt.1 gt.2) (Fin.ext ?_)
    show (128 * gt.1.val + gt.2.val) % 128 = gt.2.val
    omega
  right_inv k := by apply Fin.ext; show 128 * (k.val / 128) + k.val % 128 = k.val; omega

/-! ## The identity over the reals -/

/-- The selector picks the scale of the word's group. -/
theorem sum_selector (S : Fin 32 → ℝ) (p : Fin 512) :
    (∑ g : Fin 32, S g * (if g.val = p.val / 16 then (1 : ℝ) else 0)) = S (wgroupOf p) := by
  rw [Finset.sum_eq_single (wgroupOf p)]
  · simp [wgroupOf]
  · intro g _ hg
    have : ¬ g.val = p.val / 16 := fun h => hg (Fin.ext h)
    simp [this]
  · intro h; exact absurd (Finset.mem_univ _) h

/-- Plane by plane minus the correction is column by column. -/
theorem real_identity (X : Fin 4096 → ℝ) (Q : Fin 512 → Fin 8 → ℝ) (Z S : Fin 32 → ℝ) :
    (∑ i : Fin 8, ∑ p : Fin 512, X (colOf i p) * (Q p i * ∑ g : Fin 32, S g * (if g.val = p.val / 16 then (1 : ℝ) else 0)))
        - ∑ g : Fin 32, (∑ t : Fin 128, X (groupCol g t)) * (Z g * S g)
      = ∑ k : Fin 4096, X k * ((Q (wordOf k) (nibOf k) - Z (groupOf k)) * S (groupOf k)) := by
  have h1 : (∑ k : Fin 4096, X k * (Q (wordOf k) (nibOf k) * S (groupOf k)))
      = ∑ i : Fin 8, ∑ p : Fin 512, X (colOf i p) * (Q p i * S (wgroupOf p)) := by
    rw [← colEquiv.sum_comp, Fintype.sum_prod_type, Finset.sum_comm]
    refine Finset.sum_congr rfl fun i _ => Finset.sum_congr rfl fun p _ => ?_
    show X (colOf i p) * (Q (wordOf (colOf i p)) (nibOf (colOf i p)) * S (groupOf (colOf i p))) = _
    rw [wordOf_colOf, nibOf_colOf, groupOf_colOf]
  have h2 : (∑ k : Fin 4096, X k * (Z (groupOf k) * S (groupOf k)))
      = ∑ g : Fin 32, (∑ t : Fin 128, X (groupCol g t)) * (Z g * S g) := by
    rw [← groupEquiv.sum_comp, Fintype.sum_prod_type]
    refine Finset.sum_congr rfl fun g _ => ?_
    rw [Finset.sum_mul]
    refine Finset.sum_congr rfl fun t _ => ?_
    show X (groupCol g t) * (Z (groupOf (groupCol g t)) * S (groupOf (groupCol g t))) = _
    rw [groupOf_groupCol]
  simp only [sum_selector]
  rw [← h1, ← h2, ← Finset.sum_sub_distrib]
  refine Finset.sum_congr rfl fun k _ => ?_
  ring

/-! ## The identity over the extended reals, on finite data -/

/-- A nibble's value as a real number. -/
def nibR (w : BitVec 32) (i : Fin 8) : ℝ := ((nibAt w i).toInt : ℝ)

theorem nibE_coe (w : BitVec 32) (i : Fin 8) : nibE w i = ((nibR w i : ℝ) : EReal) := rfl

theorem onehot_coe (g : Fin 32) (p : Fin 512) :
    onehot g p = (((if g.val = p.val / 16 then (1 : ℝ) else 0 : ℝ)) : EReal) := by
  unfold onehot; split <;> simp

/-- On real-valued x and scales the plane-by-plane arrangement is the column-by-column one. -/
theorem Kat_eq_Gat (xr : SX.Idx → ℝ) (qw : SQW.Idx → BitVec 32) (qz : SQZ.Idx → BitVec 32) (sr : SSC.Idx → ℝ)
    (a : Fin 8) (o : Fin 11008) :
    Kat (fun i => (xr i : EReal)) qw qz (fun i => (sr i : EReal)) a o
      = Gat (fun i => (xr i : EReal)) qw qz (fun i => (sr i : EReal)) a o := by
  have key := real_identity (fun k => xr (ix2 a k)) (fun p i => nibR (qw (ix2 o p)) i)
    (fun g => nibR (qz (ix2 o (zwordOf g))) (znibOf g)) (fun g => sr (ix2 o g))
  unfold Kat Gat bodyVal planeDot xsumE qE zpE
  simp only [zero_add, nibE_coe, onehot_coe, ← EReal.coe_mul, ← EReal.coe_sub, ← EReal.coe_add, ← coe_sum]
  rw [EReal.coe_eq_coe_iff, ← key, Fin.sum_univ_eight]

/-- The same for the whole arrays, from finiteness stated entry by entry. -/
theorem K_eq_G (x : SX.Idx → EReal) (qw : SQW.Idx → BitVec 32) (qz : SQZ.Idx → BitVec 32) (sc : SSC.Idx → EReal)
    (hx : ∀ i, ∃ r : ℝ, x i = (r : EReal)) (hs : ∀ i, ∃ r : ℝ, sc i = (r : EReal)) :
    K x qw qz sc = G x qw qz sc := by
  choose xr hxr using hx
  choose sr hsr using hs
  obtain rfl : x = fun i => (xr i : EReal) := funext hxr
  obtain rfl : sc = fun i => (sr i : EReal) := funext hsr
  funext j
  exact Kat_eq_Gat xr qw qz sr (j 0) (j 1)

end Cert.W4

end
-- ==== Proof.Finite.lean ====
/-
  Finiteness out of the precondition. The precondition says that |x| < +∞ at every entry of the two float
  arguments (a comparison against the pattern of +∞, reduced by "and" over the whole array, the two results
  conjoined). An extended real whose absolute value max(x, −x) is below +∞ is neither +∞ nor −∞: it is a real number.
-/
import proofs.«421893_j46686294507979_3_alg».proof.Pre_finite_inputs
import proofs.«421893_j46686294507979_3_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs Cert.Pre_finite_inputs.Gen

instance : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real with max(x, −x) < +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's comparison read back. -/
theorem real_of_cmp (x : EReal)
    (h : FloatOps.cmpf (F := Ideal) .olt (FloatOps.hostAbsf (F := Ideal) (φ := .f32) x) (Ideal.ofBits .f32 0x7F800000#32) = 1#1) :
    ∃ r : ℝ, x = (r : EReal) := by
  rw [Ideal.cmpf_def, Ideal.hostAbsf_def, Ideal.absf_def, ofBits_inf] at h
  refine real_of_abs_lt_top x ?_
  simp only [Ideal.cmp] at h
  by_contra hn
  rw [decide_eq_false hn] at h
  exact absurd h (by decide)

/-- Under the precondition every entry of x and of the scales is a real number. -/
theorem finite_of_pre (x : FVec Ideal S8x4096 .f32) (qw : IVec S11008x512 32) (qz : IVec S11008x4 32)
    (sc : FVec Ideal S11008x32 .f32) (h : fn (F := Ideal) x qw qz sc = fun _ => 1#1) :
    (∀ i, ∃ r : ℝ, x i = (r : EReal)) ∧ (∀ i, ∃ r : ℝ, sc i = (r : EReal)) := by
  have h0 := congrFun h ValueIdx.ix0
  dsimp only [fn] at h0
  obtain ⟨h1, h2⟩ := IntOp.andi_eq_one.1 h0
  refine ⟨fun i => ?_, fun i => ?_⟩
  · exact real_of_cmp (x i) (Host.reduce_andi_all _ _ _ _ _ h1 i)
  · exact real_of_cmp (sc i) (Host.reduce_andi_all _ _ _ _ _ h2 i)

end Cert.FiniteInputs

end
-- ==== Proof.RefTerm.lean ====
/-
  The reference program's operations, composed stage by stage into pure terms of the four argument arrays:
  the unpacked weights, the unpacked zero points, each column's group index (a floor division by 128 and the wrap
  of a negative index), the two gathers along the group index, the dequantised weights and the contraction with x.
-/
import proofs.«421893_j46686294507979_3_alg».proof.ReferenceIdeal

noncomputable section

namespace Cert.ReferenceIdeal.Term

open Idealize.ShloMosaic Cert.ReferenceIdeal Cert.ReferenceIdeal.Facts₀

variable {F : FTy → Type} [FloatOps F] [Facts]

/-- The eight shift amounts 0, 4, …, 28: an iota times four. -/
def shifts : IVec S8 32 :=
  muli (iotaInDim S8 32 0) (broadcastInDim S8 ![] bcast_S_S8 (constantI S_ 32 4#32))

/-- The weights' nibbles, [11008, 512, 8] laid out as [11008, 4096]: each word beside the eight shifts, shifted,
    masked with 15, then the last two axes merged. -/
def qI (qw : IVec S11008x512 32) : IVec S11008x4096 32 :=
  shapeCast S11008x4096
    (andi
      (Host.shrsi
        (broadcastInDim S11008x512x8 ![0, 1, 2] bcast_S11008x512x1_S11008x512x8_0_1_2
          (broadcastInDim S11008x512x1 ![0, 1] bcast_S11008x512_S11008x512x1_0_1 qw))
        (broadcastInDim S11008x512x8 ![0, 1, 2] bcast_S1x1x8_S11008x512x8_0_1_2
          (broadcastInDim S1x1x8 ![2] bcast_S8_S1x1x8_2 shifts)))
      (broadcastInDim S11008x512x8 ![] bcast_S_S11008x512x8 (constantI S_ 32 15#32)))
    shapeCasts_S11008x512x8_S11008x4096

/-- The weights as floats. -/
def qF (qw : IVec S11008x512 32) : FVec F S11008x4096 .f32 := sitofp .f32 (qI qw)

/-- The zero points' nibbles, [11008, 4, 8] laid out as [11008, 32]. -/
def zpI (qz : IVec S11008x4 32) : IVec S11008x32 32 :=
  shapeCast S11008x32
    (andi
      (Host.shrsi
        (broadcastInDim S11008x4x8 ![0, 1, 2] bcast_S11008x4x1_S11008x4x8_0_1_2
          (broadcastInDim S11008x4x1 ![0, 1] bcast_S11008x4_S11008x4x1_0_1 qz))
        (broadcastInDim S11008x4x8 ![0, 1, 2] bcast_S1x1x8_S11008x4x8_0_1_2
          (broadcastInDim S1x1x8 ![2] bcast_S8_S1x1x8_2 shifts)))
      (broadcastInDim S11008x4x8 ![] bcast_S_S11008x4x8 (constantI S_ 32 15#32)))
    shapeCasts_S11008x4x8_S11008x32

/-- The zero points as floats. -/
def zpF (qz : IVec S11008x4 32) : FVec F S11008x32 .f32 := sitofp .f32 (zpI qz)

/-- Floor division of a vector of 4096 words by a scalar word, operation by operation: the truncated quotient,
    lowered by one where the signs differ and the remainder is not zero. -/
def floorDivBy (v : IVec S4096 32) (d : IVec S_ 32) : IVec S4096 32 :=
  let v0 : IVec S_ 32 := id d
  let v1 : IVec S4096 32 := broadcastInDim S4096 ![] bcast_S_S4096 v0
  let v2 : IVec S4096 32 := Host.divsi v v1
  let v3 : IVec S4096 32 := signi v
  let v4 : IVec S_ 32 := signi v0
  let v5 : IVec S4096 32 := broadcastInDim S4096 ![] bcast_S_S4096 v4
  let v6 : IVec S4096 1 := cmpi .ne v3 v5
  let v7 : IVec S4096 32 := broadcastInDim S4096 ![] bcast_S_S4096 v0
  let v8 : IVec S4096 32 := Host.remsi v v7
  let c : IVec S_ 32 := constantI S_ 32 0#32
  let v9 : IVec S4096 32 := broadcastInDim S4096 ![] bcast_S_S4096 c
  let v10 : IVec S4096 1 := cmpi .ne v8 v9
  let v11 : IVec S4096 1 := andi v6 v10
  let c_0 : IVec S_ 32 := constantI S_ 32 1#32
  let v12 : IVec S4096 32 := broadcastInDim S4096 ![] bcast_S_S4096 c_0
  let v13 : IVec S4096 32 := subi v2 v12
  select v11 v13 v2

/-- Each column's group index: its position divided by 128. -/
def gid : IVec S4096 32 := floorDivBy (iotaInDim S4096 32 0) (constantI S_ 32 128#32)

/-- The group index with a negative one wrapped round by 32, as a column of start indices. -/
def gidCol : IVec S4096x1 32 :=
  broadcastInDim S4096x1 ![0] bcast_S4096_S4096x1_0
    (select (cmpi .slt gid (broadcastInDim S4096 ![] bcast_S_S4096 (constantI S_ 32 0#32)))
      (addi gid (broadcastInDim S4096 ![] bcast_S_S4096 (constantI S_ 32 32#32))) gid)

/-- A per-group table spread over the columns: column k takes its group's entry. -/
def spread (tab : FVec F S11008x32 .f32) : FVec F S11008x4096 .f32 :=
  Host.gather gather_S11008x32_S4096x1_S11008x4096_0_1_n_n_1_1_110081 tab gidCol

/-- The dequantised weights: (q − zero point) · scale, column by column. -/
def wF (qw : IVec S11008x512 32) (qz : IVec S11008x4 32) (sc : FVec F S11008x32 .f32) : FVec F S11008x4096 .f32 :=
  mulf (subf (qF qw) (spread (zpF qz))) (spread sc)

/-- The reference's result: x contracted with the dequantised weights over the columns. -/
def res (x : FVec F S8x4096 .f32) (qw : IVec S11008x512 32) (qz : IVec S11008x4 32) (sc : FVec F S11008x32 .f32) :
    FVec F S8x11008 .f32 :=
  Host.dotGeneral dot_S8x4096_S11008x4096_S8x11008_1_1_0_0_n_n none x (wF qw qz sc)

end Cert.ReferenceIdeal.Term

end
-- ==== Proof.LibSeqLine.lean ====
/-
  Lines of host operations: three general facts for running a host program whose operations are listed piece by piece
  (one piece per window of the program, or per call of a local function).

  `chain_map_seq`: pieces run one after the other are their concatenation run as one line. `after_append`: the
  contents after two lines in a row are the second line's applied to what the first leaves. `forall_flatten`: a
  property every operation of every piece has, every operation of the concatenation has.
-/
import Idealize.ShloMosaic.Lib.StableHlo.Run
import Idealize.ShloMosaic.Lib.Pipeline.Regions

noncomputable section

namespace Cert.LibSeqLine

open Idealize.ShloMosaic Idealize.ShloMosaic.TcCoe Idealize.SL.Sem Idealize.ShloMosaic.StableHlo

section General

variable {nD : Nat} {τ : Topo} {sig : RefSig} {Val : EltTy → Type} {Λ : Labels}

/-- Lines run one after the other are their concatenation run as one line. -/
theorem chain_map_seq : ∀ L : List (List (HloOp τ sig Val)),
    Pipeline.chain (L.map fun l => (seq l : Prog (TpuEff nD τ sig Val Λ .tc) PUnit)) = seq L.flatten
  | [] => rfl
  | l :: L => by rw [List.map_cons, Pipeline.chain_cons, List.flatten_cons, seq_append, chain_map_seq L]

/-- The contents after two lines in a row: the second applied to what the first leaves. -/
theorem after_append : ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-- A property of every operation of every line holds of every operation of their concatenation. -/
theorem forall_flatten {α : Type} {p : α → Prop} (L : List (List α)) (h : ∀ l ∈ L, l.Forall p) : ∀ x ∈ L.flatten, p x := by
  intro x hx
  obtain ⟨l, hl, hxl⟩ := List.mem_flatten.mp hx
  exact (List.forall_iff_forall_mem.mp (h l hl)) x hxl

end General

end Cert.LibSeqLine

end
-- ==== Proof.RefRun.lean ====
/-
  The reference program's run: every weakly fair execution terminates with the result buffer at the composed term
  of the four argument arrays (RefTerm's `res`) and the arguments unchanged.
-/
import proofs.«421893_j46686294507979_3_alg».proof.Proof.Gen.ReferenceIdeal
import proofs.«421893_j46686294507979_3_alg».proof.Proof.RefTerm
import proofs.«421893_j46686294507979_3_alg».proof.Proof.LibSeqLine
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded over their buffers: the unpacked weights, the unpacked zero
    points, the column positions and the divisor; the floor division's operations over the call's buffers, its select
    (the inner call) last; the wrap of the group index (twice), the two gathers, the dequantisation and the
    contraction. -/
abbrev ops : List (HloOp τ sig (Elt F)) :=
  [ nullary main_v0 (iotaInDim S8 32 0),
    nullary main_c (constantI S_ 32 4#32),
    unary main_c main_v1 (broadcastInDim S8 ![] bcast_S_S8 : (⟨S_, .i32⟩ : BufTy).Contents (Elt F) → (⟨S8, .i32⟩ : BufTy).Contents (Elt F)),
    binary main_v0 main_v1 main_v2 (muli : (⟨S8, .i32⟩ : BufTy).Contents (Elt F) → (⟨S8, .i32⟩ : BufTy).Contents (Elt F) → (⟨S8, .i32⟩ : BufTy).Contents (Elt F)),
    unary main_arg1 main_v3 (broadcastInDim S11008x512x1 ![0, 1] bcast_S11008x512_S11008x512x1_0_1 : (⟨S11008x512, .i32⟩ : BufTy).Contents (Elt F) → (⟨S11008x512x1, .i32⟩ : BufTy).Contents (Elt F)),
    unary main_v2 main_v4 (broadcastInDim S1x1x8 ![2] bcast_S8_S1x1x8_2 : (⟨S8, .i32⟩ : BufTy).Contents (Elt F) → (⟨S1x1x8, .i32⟩ : BufTy).Contents (Elt F)),
    unary main_v3 main_v5 (broadcastInDim S11008x512x8 ![0, 1, 2] bcast_S11008x512x1_S11008x512x8_0_1_2 : (⟨S11008x512x1, .i32⟩ : BufTy).Contents (Elt F) → (⟨S11008x512x8, .i32⟩ : BufTy).Contents (Elt F)),
    unary main_v4 main_v6 (broadcastInDim S11008x512x8 ![0, 1, 2] bcast_S1x1x8_S11008x512x8_0_1_2 : (⟨S1x1x8, .i32⟩ : BufTy).Contents (Elt F) → (⟨S11008x512x8, .i32⟩ : BufTy).Contents (Elt F)),
    binary main_v5 main_v6 main_v7 (Host.shrsi : (⟨S11008x512x8, .i32⟩ : BufTy).Contents (Elt F) → (⟨S11008x512x8, .i32⟩ : BufTy).Contents (Elt F) → (⟨S11008x512x8, .i32⟩ : BufTy).Contents (Elt F)),
    nullary main_c_0 (constantI S_ 32 15#32),
    unary main_c_0 main_v8 (broadcastInDim S11008x512x8 ![] bcast_S_S11008x512x8 : (⟨S_, .i32⟩ : BufTy).Contents (Elt F) → (⟨S11008x512x8, .i32⟩ : BufTy).Contents (Elt F)),
    binary main_v7 main_v8 main_v9 (andi : (⟨S11008x512x8, .i32⟩ : BufTy).Contents (Elt F) → (⟨S11008x512x8, .i32⟩ : BufTy).Contents (Elt F) → (⟨S11008x512x8, .i32⟩ : BufTy).Contents (Elt F)),
    reshape main_v9 main_v10 rfl shapeCasts_S11008x512x8_S11008x4096,
    unary main_v10 main_v11 (sitofp .f32 : (⟨S11008x4096, .i32⟩ : BufTy).Contents (Elt F) → (⟨S11008x4096, .f32⟩ : BufTy).Contents (Elt F)),
    nullary main_v12 (iotaInDim S8 32 0),
    nullary main_c_1 (constantI S_ 32 4#32),
    unary main_c_1 main_v13 (broadcastInDim S8 ![] bcast_S_S8 : (⟨S_, .i32⟩ : BufTy).Contents (Elt F) → (⟨S8, .i32⟩ : BufTy).Contents (Elt F)),
    binary main_v12 main_v13 main_v14 (muli : (⟨S8, .i32⟩ : BufTy).Contents (Elt F) → (⟨S8, .i32⟩ : BufTy).Contents (Elt F) → (⟨S8, .i32⟩ : BufTy).Contents (Elt F)),
    unary main_arg2 main_v15 (broadcastInDim S11008x4x1 ![0, 1] bcast_S11008x4_S11008x4x1_0_1 : (⟨S11008x4, .i32⟩ : BufTy).Contents (Elt F) → (⟨S11008x4x1, .i32⟩ : BufTy).Contents (Elt F)),
    unary main_v14 main_v16 (broadcastInDim S1x1x8 ![2] bcast_S8_S1x1x8_2 : (⟨S8, .i32⟩ : BufTy).Contents (Elt F) → (⟨S1x1x8, .i32⟩ : BufTy).Contents (Elt F)),
    unary main_v15 main_v17 (broadcastInDim S11008x4x8 ![0, 1, 2] bcast_S11008x4x1_S11008x4x8_0_1_2 : (⟨S11008x4x1, .i32⟩ : BufTy).Contents (Elt F) → (⟨S11008x4x8, .i32⟩ : BufTy).Contents (Elt F)),
    unary main_v16 main_v18 (broadcastInDim S11008x4x8 ![0, 1, 2] bcast_S1x1x8_S11008x4x8_0_1_2 : (⟨S1x1x8, .i32⟩ : BufTy).Contents (Elt F) → (⟨S11008x4x8, .i32⟩ : BufTy).Contents (Elt F)),
    binary main_v17 main_v18 main_v19 (Host.shrsi : (⟨S11008x4x8, .i32⟩ : BufTy).Contents (Elt F) → (⟨S11008x4x8, .i32⟩ : BufTy).Contents (Elt F) → (⟨S11008x4x8, .i32⟩ : BufTy).Contents (Elt F)),
    nullary main_c_2 (constantI S_ 32 15#32),
    unary main_c_2 main_v20 (broadcastInDim S11008x4x8 ![] bcast_S_S11008x4x8 : (⟨S_, .i32⟩ : BufTy).Contents (Elt F) → (⟨S11008x4x8, .i32⟩ : BufTy).Contents (Elt F)),
    binary main_v19 main_v20 main_v21 (andi : (⟨S11008x4x8, .i32⟩ : BufTy).Contents (Elt F) → (⟨S11008x4x8, .i32⟩ : BufTy).Contents (Elt F) → (⟨S11008x4x8, .i32⟩ : BufTy).Contents (Elt F)),
    reshape main_v21 main_v22 rfl shapeCasts_S11008x4x8_S11008x32,
    unary main_v22 main_v23 (sitofp .f32 : (⟨S11008x32, .i32⟩ : BufTy).Contents (Elt F) → (⟨S11008x32, .f32⟩ : BufTy).Contents (Elt F)),
    nullary main_v24 (iotaInDim S4096 32 0),
    nullary main_c_3 (constantI S_ 32 128#32),
    TRef.unary (.of main_c_3 : TRef sig ⟨S_, .i32⟩) main_call0.v0 id,
    TRef.unary main_call0.v0 main_call0.v1 (broadcastInDim S4096 ![] bcast_S_S4096),
    TRef.binary (.of main_v24 : TRef sig ⟨S4096, .i32⟩) main_call0.v1 main_call0.v2 Host.divsi,
    TRef.unary (.of main_v24 : TRef sig ⟨S4096, .i32⟩) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v24 : TRef sig ⟨S4096, .i32⟩) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    nullary main_c_4 (constantI S_ 32 0#32),
    unary main_c_4 main_v26 (broadcastInDim S4096 ![] bcast_S_S4096 : (⟨S_, .i32⟩ : BufTy).Contents (Elt F) → (⟨S4096, .i32⟩ : BufTy).Contents (Elt F)),
    binary main_v25 main_v26 main_v27 (cmpi .slt : (⟨S4096, .i32⟩ : BufTy).Contents (Elt F) → (⟨S4096, .i32⟩ : BufTy).Contents (Elt F) → (⟨S4096, .i1⟩ : BufTy).Contents (Elt F)),
    nullary main_c_5 (constantI S_ 32 32#32),
    unary main_c_5 main_v28 (broadcastInDim S4096 ![] bcast_S_S4096 : (⟨S_, .i32⟩ : BufTy).Contents (Elt F) → (⟨S4096, .i32⟩ : BufTy).Contents (Elt F)),
    binary main_v25 main_v28 main_v29 (addi : (⟨S4096, .i32⟩ : BufTy).Contents (Elt F) → (⟨S4096, .i32⟩ : BufTy).Contents (Elt F) → (⟨S4096, .i32⟩ : BufTy).Contents (Elt F)),
    ternary main_v27 main_v29 main_v25 main_v30 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v30 main_v31 (broadcastInDim S4096x1 ![0] bcast_S4096_S4096x1_0 : (⟨S4096, .i32⟩ : BufTy).Contents (Elt F) → (⟨S4096x1, .i32⟩ : BufTy).Contents (Elt F)),
    binary main_v23 main_v31 main_v32 ((fun x i => Host.gather gather_S11008x32_S4096x1_S11008x4096_0_1_n_n_1_1_110081 x i) : (⟨S11008x32, .f32⟩ : BufTy).Contents (Elt F) → (⟨S4096x1, .i32⟩ : BufTy).Contents (Elt F) → (⟨S11008x4096, .f32⟩ : BufTy).Contents (Elt F)),
    nullary main_c_6 (constantI S_ 32 0#32),
    unary main_c_6 main_v33 (broadcastInDim S4096 ![] bcast_S_S4096 : (⟨S_, .i32⟩ : BufTy).Contents (Elt F) → (⟨S4096, .i32⟩ : BufTy).Contents (Elt F)),
    binary main_v25 main_v33 main_v34 (cmpi .slt : (⟨S4096, .i32⟩ : BufTy).Contents (Elt F) → (⟨S4096, .i32⟩ : BufTy).Contents (Elt F) → (⟨S4096, .i1⟩ : BufTy).Contents (Elt F)),
    nullary main_c_7 (constantI S_ 32 32#32),
    unary main_c_7 main_v35 (broadcastInDim S4096 ![] bcast_S_S4096 : (⟨S_, .i32⟩ : BufTy).Contents (Elt F) → (⟨S4096, .i32⟩ : BufTy).Contents (Elt F)),
    binary main_v25 main_v35 main_v36 (addi : (⟨S4096, .i32⟩ : BufTy).Contents (Elt F) → (⟨S4096, .i32⟩ : BufTy).Contents (Elt F) → (⟨S4096, .i32⟩ : BufTy).Contents (Elt F)),
    ternary main_v34 main_v36 main_v25 main_v37 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v37 main_v38 (broadcastInDim S4096x1 ![0] bcast_S4096_S4096x1_0 : (⟨S4096, .i32⟩ : BufTy).Contents (Elt F) → (⟨S4096x1, .i32⟩ : BufTy).Contents (Elt F)),
    binary main_arg3 main_v38 main_v39 ((fun x i => Host.gather gather_S11008x32_S4096x1_S11008x4096_0_1_n_n_1_1_110081 x i) : (⟨S11008x32, .f32⟩ : BufTy).Contents (Elt F) → (⟨S4096x1, .i32⟩ : BufTy).Contents (Elt F) → (⟨S11008x4096, .f32⟩ : BufTy).Contents (Elt F)),
    binary main_v11 main_v32 main_v40 (subf : (⟨S11008x4096, .f32⟩ : BufTy).Contents (Elt F) → (⟨S11008x4096, .f32⟩ : BufTy).Contents (Elt F) → (⟨S11008x4096, .f32⟩ : BufTy).Contents (Elt F)),
    binary main_v40 main_v39 main_v41 (mulf : (⟨S11008x4096, .f32⟩ : BufTy).Contents (Elt F) → (⟨S11008x4096, .f32⟩ : BufTy).Contents (Elt F) → (⟨S11008x4096, .f32⟩ : BufTy).Contents (Elt F)),
    binary main_arg0 main_v41 main_v42 ((fun l r => Host.dotGeneral dot_S8x4096_S11008x4096_S8x11008_1_1_0_0_n_n none l r) : (⟨S8x4096, .f32⟩ : BufTy).Contents (Elt F) → (⟨S11008x4096, .f32⟩ : BufTy).Contents (Elt F) → (⟨S8x11008, .f32⟩ : BufTy).Contents (Elt F)) ]

set_option maxRecDepth 4096 in
/-- @main is that straight line: the two functions unfolded at their calls, both sides are one chain of steps once
    sequencing is reassociated. -/
theorem main_eq (c : Dev nD) : main (F := F) c = seq ops := by
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    unary_bufs_sub .., unary_bufs_sub .., binary_bufs_sub .., nullary_bufs_sub .., unary_bufs_sub .., binary_bufs_sub ..,
    reshape_bufs_sub .., unary_bufs_sub .., nullary_bufs_sub .., nullary_bufs_sub .., unary_bufs_sub .., binary_bufs_sub ..,
    unary_bufs_sub .., unary_bufs_sub .., unary_bufs_sub .., unary_bufs_sub .., binary_bufs_sub .., nullary_bufs_sub ..,
    unary_bufs_sub .., binary_bufs_sub .., reshape_bufs_sub .., unary_bufs_sub .., nullary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., binary_bufs_sub ..⟩

attribute [local irreducible] Host.gather Host.divsi Host.remsi Host.shrsi shapeCast broadcastInDim in
set_option maxRecDepth 8192 in
set_option maxHeartbeats 4000000 in
/-- The fold at the result buffer is the composed term, by computation: each operation's result decides whether the
    buffer read is the one it writes, and the typed references' casts are the identity at these literal references.
    The gathers, the integer division, remainder and shift, and the layout operations are kept folded meanwhile: the
    equation never looks inside them. The wrap of the group index, computed twice by @main, is one term on the
    right. -/
theorem res_eq' (V : Valuation τ sig (Elt F)) :
    after ops V (main_v42 : DevRef τ sig)
      = Term.res (V (main_arg0 : DevRef τ sig)) (V (main_arg1 : DevRef τ sig)) (V (main_arg2 : DevRef τ sig))
          (V (main_arg3 : DevRef τ sig)) := by
  rfl

/-! No operation writes an argument's buffer. -/

attribute [local irreducible] Host.gather Host.divsi Host.remsi Host.shrsi shapeCast broadcastInDim in
set_option maxRecDepth 8192 in
set_option maxHeartbeats 400000 in
theorem arg0_eq (V : Valuation τ sig (Elt F)) :
    after ops V (main_arg0 : DevRef τ sig) = V (main_arg0 : DevRef τ sig) := rfl

attribute [local irreducible] Host.gather Host.divsi Host.remsi Host.shrsi shapeCast broadcastInDim in
set_option maxRecDepth 8192 in
set_option maxHeartbeats 400000 in
theorem arg1_eq (V : Valuation τ sig (Elt F)) :
    after ops V (main_arg1 : DevRef τ sig) = V (main_arg1 : DevRef τ sig) := rfl

attribute [local irreducible] Host.gather Host.divsi Host.remsi Host.shrsi shapeCast broadcastInDim in
set_option maxRecDepth 8192 in
set_option maxHeartbeats 400000 in
theorem arg2_eq (V : Valuation τ sig (Elt F)) :
    after ops V (main_arg2 : DevRef τ sig) = V (main_arg2 : DevRef τ sig) := rfl

attribute [local irreducible] Host.gather Host.divsi Host.remsi Host.shrsi shapeCast broadcastInDim in
set_option maxRecDepth 8192 in
set_option maxHeartbeats 400000 in
theorem arg3_eq (V : Valuation τ sig (Elt F)) :
    after ops V (main_arg3 : DevRef τ sig) = V (main_arg3 : DevRef τ sig) := rfl

/-- On every device, for any float values, from any memory with zero counters: every weakly fair execution of @main
    terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
          = Term.res (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v42).trans (res_eq' (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.Run

end
-- ==== Proof.LibWordDiv.lean ====
/-
  Signed 32-bit word arithmetic on non-negative words.

  A word below 2³¹ is non-negative as a signed number, and on such words (with a positive divisor below 2³¹) the
  signed quotient and remainder are the quotient and remainder of the values as natural numbers. jnp's floor
  division and remainder are the truncated ones followed by a correction that applies only when signs differ; on
  non-negative words the correction never applies, so they too are the natural-number quotient and remainder.
  The same holds for the wrap of a negative index (nothing to wrap), the clip below at zero (nothing to clip) and
  the comparison of a position with a total (the comparison of the values).
-/
import Idealize.ShloMosaic.PureOps.Vector
import Idealize.ShloMosaic.PureOps.ShapeOps
import Idealize.ShloMosaic.Lib.StableHlo.Predicate

namespace Cert.LibWordDiv

open Idealize.ShloMosaic
open Idealize.ShloMosaic.StableHlo.Predicate (slt_iff_toNat sge_iff_toNat cmpi_eq_iff ofBool_eq_one_iff)

/-! ## Words -/

/-- A word below 2³¹ has its top bit clear. -/
theorem msb_false_of_lt {a : BitVec 32} (ha : a.toNat < 2 ^ 31) : a.msb = false :=
  BitVec.msb_eq_false_iff_two_mul_lt.mpr (by omega)

/-- Selecting on the zero bit takes the second branch. -/
theorem select_zero {α : Type} (a b : α) : Scalar.select 0#1 a b = b := by
  simp [Scalar.select]

/-- Selecting on the one bit takes the first branch. -/
theorem select_one {α : Type} (a b : α) : Scalar.select 1#1 a b = a := by
  simp [Scalar.select]

/-- A positive divisor below 2³¹ and a dividend below 2³¹ are not at the signed-division corner. -/
theorem not_corner (v d : BitVec 32) (hd0 : 0 < d.toNat) (hd : d.toNat < 2 ^ 31) : ¬ IntOp.SDivCorner v d := by
  rintro (hc | ⟨_, hc⟩)
  · rw [hc] at hd0; simp at hd0
  · rw [hc] at hd; revert hd; decide

/-- Signed division of a word below 2³¹ by a positive word below 2³¹ is the quotient of the values. -/
theorem divsi_host_eq (v d : BitVec 32) (hv : v.toNat < 2 ^ 31) (hd0 : 0 < d.toNat) (hd : d.toNat < 2 ^ 31) :
    IntOp.divsi .host v d = BitVec.ofNat 32 (v.toNat / d.toNat) := by
  have hle : v.toNat / d.toNat ≤ v.toNat := Nat.div_le_self _ _
  simp only [IntOp.divsi, if_neg (not_corner v d hd0 hd), BitVec.sdiv_eq, msb_false_of_lt hv, msb_false_of_lt hd,
    BitVec.udiv_eq]
  apply BitVec.eq_of_toNat_eq
  rw [BitVec.toNat_udiv, BitVec.toNat_ofNat, Nat.mod_eq_of_lt (by omega)]

/-- Signed remainder of a word below 2³¹ by a positive word below 2³¹ is the remainder of the values. -/
theorem remsi_host_eq (v d : BitVec 32) (hv : v.toNat < 2 ^ 31) (hd0 : 0 < d.toNat) (hd : d.toNat < 2 ^ 31) :
    IntOp.remsi .host v d = BitVec.ofNat 32 (v.toNat % d.toNat) := by
  have hlt : v.toNat % d.toNat < d.toNat := Nat.mod_lt _ hd0
  simp only [IntOp.remsi, if_neg (not_corner v d hd0 hd), BitVec.srem_eq, msb_false_of_lt hv, msb_false_of_lt hd,
    BitVec.umod_eq]
  apply BitVec.eq_of_toNat_eq
  rw [BitVec.toNat_umod, BitVec.toNat_ofNat, Nat.mod_eq_of_lt (a := v.toNat % d.toNat) (b := 2 ^ 32) (by omega)]

/-- The sign word of a word: 0 for zero, −1 for a negative word, 1 for a positive one. -/
def signW (x : BitVec 32) : BitVec 32 := if x = 0 then 0 else if x.msb then -1 else 1

/-- The sign word of a positive word below 2³¹ is 1. -/
theorem signW_pos (x : BitVec 32) (h0 : 0 < x.toNat) (h : x.toNat < 2 ^ 31) : signW x = 1 := by
  have hx : ¬ x = 0#32 := by rintro rfl; simp at h0
  simp [signW, hx, msb_false_of_lt h]

/-- jnp's floor division at one element, operation by operation: the truncated quotient, lowered by one where the
signs of dividend and divisor differ and the remainder is not zero. -/
def floorDivW (v d : BitVec 32) : BitVec 32 :=
  Scalar.select
    (IntOp.andi (IntOp.cmpi .ne (signW v) (signW d)) (IntOp.cmpi .ne (IntOp.remsi .host v d) 0#32))
    (IntOp.subi (IntOp.divsi .host v d) 1#32) (IntOp.divsi .host v d)

/-- jnp's remainder at one element, operation by operation: a zero divisor is replaced by one; the truncated
remainder, raised by the divisor where its sign differs from the divisor's and it is not zero. -/
def remainderW (v d : BitVec 32) : BitVec 32 :=
  let d' := Scalar.select (IntOp.cmpi .eq d 0#32) 1#32 d
  let r := IntOp.remsi .host v d'
  Scalar.select
    (IntOp.andi (IntOp.cmpi .ne (IntOp.cmpi .slt r 0#32) (IntOp.cmpi .slt d' 0#32)) (IntOp.cmpi .ne r 0#32))
    (IntOp.addi r d') r

/-- Floor division of a word below 2³¹ by a positive word below 2³¹ is the quotient of the values: no correction
is made, because either the signs agree or the dividend (hence the remainder) is zero. -/
theorem floorDivW_eq (v d : BitVec 32) (hv : v.toNat < 2 ^ 31) (hd0 : 0 < d.toNat) (hd : d.toNat < 2 ^ 31) :
    floorDivW v d = BitVec.ofNat 32 (v.toNat / d.toNat) := by
  have hcond : IntOp.andi (IntOp.cmpi .ne (signW v) (signW d)) (IntOp.cmpi .ne (IntOp.remsi .host v d) 0#32) = 0#1 := by
    rw [signW_pos d hd0 hd, remsi_host_eq v d hv hd0 hd]
    by_cases hz : v.toNat = 0
    · have : IntOp.cmpi .ne (BitVec.ofNat 32 (v.toNat % d.toNat)) 0#32 = 0#1 := by
        rw [hz, Nat.zero_mod]; decide
      rw [this]; simp [IntOp.andi]
    · have : IntOp.cmpi .ne (signW v) 1 = 0#1 := by
        rw [signW_pos v (by omega) hv]; decide
      rw [this]; simp [IntOp.andi]
  unfold floorDivW
  rw [hcond, select_zero, divsi_host_eq v d hv hd0 hd]

/-- The remainder of a word below 2³¹ by a positive word below 2³¹ is the remainder of the values: the divisor is
not zero, and no correction is made because remainder and divisor are both non-negative. -/
theorem remainderW_eq (v d : BitVec 32) (hv : v.toNat < 2 ^ 31) (hd0 : 0 < d.toNat) (hd : d.toNat < 2 ^ 31) :
    remainderW v d = BitVec.ofNat 32 (v.toNat % d.toNat) := by
  have hdne : d ≠ 0#32 := by rintro rfl; simp at hd0
  have hd' : Scalar.select (IntOp.cmpi .eq d 0#32) 1#32 d = d := by
    have : IntOp.cmpi .eq d 0#32 = 0#1 := by
      simp only [IntOp.cmpi]
      have : (d == 0#32) = false := by simpa using hdne
      rw [this]; rfl
    rw [this, select_zero]
  have hr : IntOp.remsi .host v d = BitVec.ofNat 32 (v.toNat % d.toNat) := remsi_host_eq v d hv hd0 hd
  have hrlt : (BitVec.ofNat 32 (v.toNat % d.toNat)).toNat < 2 ^ 31 := by
    have := Nat.mod_lt v.toNat hd0
    rw [BitVec.toNat_ofNat, Nat.mod_eq_of_lt (a := v.toNat % d.toNat) (b := 2 ^ 32) (by omega)]; omega
  have hneg (a : BitVec 32) (ha : a.toNat < 2 ^ 31) : IntOp.cmpi .slt a 0#32 = 0#1 := by
    have h := (slt_iff_toNat (a := a) (b := 0#32) ha (by decide)).not
    have h1 : ¬ IntOp.cmpi .slt a 0#32 = 1#1 := h.mpr (by simp)
    revert h1; generalize IntOp.cmpi .slt a 0#32 = c; revert c; decide
  unfold remainderW
  simp only [hd', hr, hneg _ hrlt, hneg d hd]
  have : IntOp.cmpi .ne (0#1) (0#1) = 0#1 := by decide
  rw [this]
  simp [IntOp.andi, select_zero]

/-- A word below 2³¹ is not below zero as a signed number. -/
theorem slt_zero_false (a : BitVec 32) (ha : a.toNat < 2 ^ 31) : a.slt 0#32 = false := by
  have h := StableHlo.Predicate.slt_bool_iff_toNat (a := a) (b := 0#32) ha (by decide)
  cases hb : a.slt 0#32
  · rfl
  · rw [hb] at h
    exact absurd (h.mp rfl) (by simp)

/-- The signed comparison "below zero" of a word below 2³¹ is the zero bit. -/
theorem cmpi_slt_zero (a : BitVec 32) (ha : a.toNat < 2 ^ 31) : IntOp.cmpi .slt a 0#32 = 0#1 := by
  simp only [IntOp.cmpi, slt_zero_false a ha]; rfl

/-- The wrap of a negative index (add c where the word is below zero) leaves a word below 2³¹ as it is. -/
theorem wrapW_eq (v c : BitVec 32) (hv : v.toNat < 2 ^ 31) :
    Scalar.select (IntOp.cmpi .slt v 0#32) (IntOp.addi v c) v = v := by
  rw [cmpi_slt_zero v hv, select_zero]

/-- The signed maximum of zero and a word below 2³¹ is the word. -/
theorem maxsi_zero_left (v : BitVec 32) (hv : v.toNat < 2 ^ 31) : IntOp.maxsi 0#32 v = v := by
  simp [IntOp.maxsi, slt_zero_false v hv]

/-- Selecting on the signed comparison "position k at least the total", for a position and a total below 2³¹, is
selecting on the comparison of the values. -/
theorem fillW_eq {α : Type} (k : ℕ) (hk : k < 2 ^ 31) (total : BitVec 32) (ht : total.toNat < 2 ^ 31) (f x : α) :
    Scalar.select (IntOp.cmpi .sge (BitVec.ofNat 32 k) total) f x = if total.toNat ≤ k then f else x := by
  have hk' : (BitVec.ofNat 32 k).toNat = k := by rw [BitVec.toNat_ofNat]; exact Nat.mod_eq_of_lt (by omega)
  have h := sge_iff_toNat (a := BitVec.ofNat 32 k) (b := total) (by omega) ht
  rw [hk'] at h
  by_cases hle : total.toNat ≤ k
  · rw [h.mpr hle, select_one, if_pos hle]
  · have h1 : ¬ IntOp.cmpi .sge (BitVec.ofNat 32 k) total = 1#1 := fun hc => hle (h.mp hc)
    have h0 : IntOp.cmpi .sge (BitVec.ofNat 32 k) total = 0#1 := by
      revert h1; generalize IntOp.cmpi .sge (BitVec.ofNat 32 k) total = c; revert c; decide
    rw [h0, select_zero, if_neg hle]

/-! ## Vectors: the helpers operation by operation, and their values -/

/-- The shape of a scalar. -/
abbrev S0 : Shape := ⟨0, ![]⟩

/-- The one index of a scalar. -/
def i0 : S0.Idx := fun a => a.elim0

/-- A scalar broadcast to any shape reads the scalar at every index. -/
theorem bcast0_apply {α : Type} {t : Shape} (bc : S0.BroadcastsInDim t ![]) (x : S0.Idx → α) (j : t.Idx) :
    broadcastInDim t ![] bc x j = x i0 := by
  simp only [broadcastInDim]
  congr 1
  funext a
  exact a.elim0

variable {t : Shape} (bc : S0.BroadcastsInDim t ![])

/-- jnp's floor division of a vector by a scalar, operation by operation. -/
def floorDivide (v : IVec t 32) (d : IVec S0 32) : IVec t 32 :=
  let v0 := broadcastInDim t ![] bc d
  let v1 := Host.divsi v v0
  let v2 := signi v
  let v3 := signi d
  let v4 := broadcastInDim t ![] bc v3
  let v5 := cmpi .ne v2 v4
  let v6 := broadcastInDim t ![] bc d
  let v7 := Host.remsi v v6
  let c := constantI S0 32 0#32
  let v8 := broadcastInDim t ![] bc c
  let v9 := cmpi .ne v7 v8
  let v10 := andi v5 v9
  let c_0 := constantI S0 32 1#32
  let v11 := broadcastInDim t ![] bc c_0
  let v12 := subi v1 v11
  select v10 v12 v1

/-- jnp's remainder of a vector by a scalar, operation by operation. -/
def remainder (v : IVec t 32) (d : IVec S0 32) : IVec t 32 :=
  let v0 : IVec S0 32 := id d
  let c := constantI S0 32 0#32
  let v1 := cmpi .eq v0 c
  let c_0 := constantI S0 32 1#32
  let v2 := select v1 c_0 v0
  let v3 := broadcastInDim t ![] bc v2
  let v4 := Host.remsi v v3
  let c_1 := constantI S0 32 0#32
  let v5 := broadcastInDim t ![] bc c_1
  let v6 := cmpi .ne v4 v5
  let c_2 := constantI S0 32 0#32
  let v7 := broadcastInDim t ![] bc c_2
  let v8 := cmpi .slt v4 v7
  let c_3 := constantI S0 32 0#32
  let v9 := cmpi .slt v2 c_3
  let v10 := broadcastInDim t ![] bc v9
  let v11 := cmpi .ne v8 v10
  let v12 := andi v11 v6
  let v13 := broadcastInDim t ![] bc v2
  let v14 := addi v4 v13
  select v12 v14 v4

/-- The selection between a broadcast scalar and a vector, operation by operation. -/
def where4 (c : IVec t 1) (f : IVec S0 32) (x : IVec t 32) : IVec t 32 :=
  let v0 : IVec S0 32 := id f
  let v1 := broadcastInDim t ![] bc v0
  select c v1 x

/-- The clip below at a scalar, operation by operation. -/
def clipLo (v : IVec t 32) (lo : IVec S0 32) : IVec t 32 :=
  let v0 : IVec S0 32 := id lo
  let v1 := broadcastInDim t ![] bc v0
  maxsi v1 v

/-- The wrap of negative indices by a constant c, operation by operation. -/
def wrapNeg (v : IVec t 32) (c : BitVec 32) : IVec t 32 :=
  let z := broadcastInDim t ![] bc (constantI S0 32 0#32)
  let m := cmpi .slt v z
  let cc := broadcastInDim t ![] bc (constantI S0 32 c)
  let s := addi v cc
  select m s v

/-- Floor division of a vector by a scalar is, at each index, the one-element floor division. -/
theorem floorDivide_apply (v : IVec t 32) (d : IVec S0 32) (j : t.Idx) :
    floorDivide bc v d j = floorDivW (v j) (d i0) := by
  simp only [floorDivide, floorDivW, select, andi, cmpi, signi, signW, Host.divsi, Host.remsi, subi, constantI,
    bcast0_apply]

/-- The remainder of a vector by a scalar is, at each index, the one-element remainder. -/
theorem remainder_apply (v : IVec t 32) (d : IVec S0 32) (j : t.Idx) :
    remainder bc v d j = remainderW (v j) (d i0) := by
  simp only [remainder, remainderW, select, andi, addi, cmpi, Host.remsi, constantI, bcast0_apply, id]

/-- The selection between a broadcast scalar and a vector is the selection at each index. -/
theorem where4_apply (c : IVec t 1) (f : IVec S0 32) (x : IVec t 32) (j : t.Idx) :
    where4 bc c f x j = Scalar.select (c j) (f i0) (x j) := by
  simp only [where4, select, bcast0_apply, id]

/-- Floor division of a vector of words below 2³¹ by a positive scalar below 2³¹: the quotient of the values. -/
theorem floorDivide_eq (v : IVec t 32) (d : IVec S0 32) (hv : ∀ j, (v j).toNat < 2 ^ 31)
    (hd0 : 0 < (d i0).toNat) (hd : (d i0).toNat < 2 ^ 31) :
    floorDivide bc v d = fun j => BitVec.ofNat 32 ((v j).toNat / (d i0).toNat) := by
  funext j
  rw [floorDivide_apply, floorDivW_eq _ _ (hv j) hd0 hd]

/-- The remainder of a vector of words below 2³¹ by a positive scalar below 2³¹: the remainder of the values. -/
theorem remainder_eq (v : IVec t 32) (d : IVec S0 32) (hv : ∀ j, (v j).toNat < 2 ^ 31)
    (hd0 : 0 < (d i0).toNat) (hd : (d i0).toNat < 2 ^ 31) :
    remainder bc v d = fun j => BitVec.ofNat 32 ((v j).toNat % (d i0).toNat) := by
  funext j
  rw [remainder_apply, remainderW_eq _ _ (hv j) hd0 hd]

/-- Clipping a vector of words below 2³¹ below at zero changes nothing. -/
theorem clipLo_zero_eq (v : IVec t 32) (hv : ∀ j, (v j).toNat < 2 ^ 31) :
    clipLo bc v (constantI S0 32 0#32) = v := by
  funext j
  simp only [clipLo, maxsi, bcast0_apply, id, constantI]
  exact maxsi_zero_left _ (hv j)

/-- Wrapping the negative entries of a vector of words below 2³¹ changes nothing. -/
theorem wrapNeg_eq (v : IVec t 32) (c : BitVec 32) (hv : ∀ j, (v j).toNat < 2 ^ 31) :
    wrapNeg bc v c = v := by
  funext j
  simp only [wrapNeg, select, cmpi, addi, bcast0_apply, constantI]
  exact wrapW_eq _ _ (hv j)

/-- The fill past a total, operation by operation: where the position is at least the total (signed comparison
against the broadcast total), the broadcast scalar f; elsewhere the vector x. -/
def fillFrom {n : ℕ} (bc : S0.BroadcastsInDim ⟨1, ![n]⟩ ![]) (total f : IVec S0 32) (x : IVec ⟨1, ![n]⟩ 32) :
    IVec ⟨1, ![n]⟩ 32 :=
  let v18 := iotaInDim ⟨1, ![n]⟩ 32 0
  let v21 := broadcastInDim ⟨1, ![n]⟩ ![] bc total
  let v22 := cmpi .sge v18 v21
  where4 bc v22 f x

/-- For a vector of at most 2³¹ entries and a total below 2³¹, the fill past the total is: at a position at least
the total, the scalar f; before it, the vector's own entry. -/
theorem fillFrom_apply {n : ℕ} (bc : S0.BroadcastsInDim ⟨1, ![n]⟩ ![]) (total f : IVec S0 32)
    (x : IVec ⟨1, ![n]⟩ 32) (hn : n ≤ 2 ^ 31) (ht : (total i0).toNat < 2 ^ 31) (j : (⟨1, ![n]⟩ : Shape).Idx) :
    fillFrom bc total f x j = if (total i0).toNat ≤ (j 0).val then f i0 else x j := by
  have hj : (j 0).val < n := (j 0).isLt
  simp only [fillFrom, where4_apply, cmpi, iotaInDim]
  rw [bcast0_apply bc total j]
  exact fillW_eq (j 0).val (by omega) (total i0) ht (f i0) (x j)

/-! ## Constant divisors -/

/-- The value of a small natural number written as a word is the number. -/
theorem toNat_ofNat_of_lt (a : ℕ) (ha : a < 2 ^ 31) : (BitVec.ofNat 32 a).toNat = a := by
  rw [BitVec.toNat_ofNat]; exact Nat.mod_eq_of_lt (by omega)

/-- Floor division of a vector of words below 2³¹ by a positive constant below 2³¹. -/
theorem floorDivide_const_eq (v : IVec t 32) (c : BitVec 32) (hv : ∀ j, (v j).toNat < 2 ^ 31)
    (hc0 : 0 < c.toNat) (hc : c.toNat < 2 ^ 31) :
    floorDivide bc v (constantI S0 32 c) = fun j => BitVec.ofNat 32 ((v j).toNat / c.toNat) :=
  floorDivide_eq bc v (constantI S0 32 c) hv hc0 hc

/-- The remainder of a vector of words below 2³¹ by a positive constant below 2³¹. -/
theorem remainder_const_eq (v : IVec t 32) (c : BitVec 32) (hv : ∀ j, (v j).toNat < 2 ^ 31)
    (hc0 : 0 < c.toNat) (hc : c.toNat < 2 ^ 31) :
    remainder bc v (constantI S0 32 c) = fun j => BitVec.ofNat 32 ((v j).toNat % c.toNat) :=
  remainder_eq bc v (constantI S0 32 c) hv hc0 hc

/-- Floor division of a vector of words below 2³¹ by one is the vector. -/
theorem floorDivide_one_eq (v : IVec t 32) (hv : ∀ j, (v j).toNat < 2 ^ 31) :
    floorDivide bc v (constantI S0 32 1#32) = v := by
  rw [floorDivide_const_eq bc v 1#32 hv (by decide) (by decide)]
  funext j
  apply BitVec.eq_of_toNat_eq
  have h1 : (1#32 : BitVec 32).toNat = 1 := by decide
  rw [h1, Nat.div_one, toNat_ofNat_of_lt _ (hv j)]

/-- Row of a flat position: the floor division by 4096 followed by the remainder by 4096 of a vector of words
below 2³¹ is, at each index, the value divided by 4096 and reduced modulo 4096. -/
theorem rowOf_eq (v : IVec t 32) (hv : ∀ j, (v j).toNat < 2 ^ 31) :
    remainder bc (floorDivide bc v (constantI S0 32 4096#32)) (constantI S0 32 4096#32)
      = fun j => BitVec.ofNat 32 ((v j).toNat / 4096 % 4096) := by
  have h4 : (4096#32 : BitVec 32).toNat = 4096 := by decide
  rw [floorDivide_const_eq bc v 4096#32 hv (by decide) (by decide)]
  have hq : ∀ j, (BitVec.ofNat 32 ((v j).toNat / (4096#32 : BitVec 32).toNat)).toNat < 2 ^ 31 := by
    intro j
    have := hv j
    rw [h4, toNat_ofNat_of_lt _ (by omega)]; omega
  rw [remainder_const_eq bc _ 4096#32 hq (by decide) (by decide)]
  funext j
  have := hv j
  rw [h4, toNat_ofNat_of_lt _ (by omega)]

/-- Column of a flat position: the floor division by one followed by the remainder by 4096 of a vector of words
below 2³¹ is, at each index, the value reduced modulo 4096. -/
theorem colOf_eq (v : IVec t 32) (hv : ∀ j, (v j).toNat < 2 ^ 31) :
    remainder bc (floorDivide bc v (constantI S0 32 1#32)) (constantI S0 32 4096#32)
      = fun j => BitVec.ofNat 32 ((v j).toNat % 4096) := by
  have h4 : (4096#32 : BitVec 32).toNat = 4096 := by decide
  rw [floorDivide_one_eq bc v hv, remainder_const_eq bc v 4096#32 hv (by decide) (by decide), h4]

end Cert.LibWordDiv
-- ==== Proof.RefRead.lean ====
/-
  The reference's composed term read at an index, at the ideal values: it is the column-by-column sum of Spec.

  Stage by stage: the shift amounts are the words 4·i, so a word shifted and masked is its nibble i; the reshape of
  [rows, words, 8] to [rows, columns] puts nibble k mod 8 of word k / 8 at column k; a column's group index is its
  position divided by 128 (a non-negative word, which the wrap of a negative index leaves alone); the gather along
  the group index reads the table at (row, k / 128); and the contraction over the one shared axis is the sum over
  the columns of the products.
-/
import proofs.«421893_j46686294507979_3_alg».proof.Proof.Gen.ReferenceIdeal
import proofs.«421893_j46686294507979_3_alg».proof.Proof.RefTerm
import proofs.«421893_j46686294507979_3_alg».proof.Proof.Spec
import proofs.«421893_j46686294507979_3_alg».proof.Proof.LibWordDiv
import Idealize.ShloMosaic.PureOps.Ideal.Laws
import Idealize.ShloMosaic.Lib.ValueIdx
import Idealize.ShloMosaic.Lib.Pipeline.Value

noncomputable section

namespace Cert.ReferenceIdeal.Read

open Cert.ReferenceIdeal Cert.ReferenceIdeal.Gen Idealize.ShloMosaic Idealize.ShloMosaic.ValueIdx

/-- The shift amounts: at position i, the word 4·i. -/
theorem shifts_apply (i : Fin 8) : Term.shifts (ix1 i) = BitVec.ofNat 32 i.val * 4#32 := rfl

/-- Shifting a word right by 4·i and masking with 15 is its nibble i. -/
theorem nib_eq (w : BitVec 32) (i : Fin 8) :
    IntOp.andi (IntOp.shrsi .host w (BitVec.ofNat 32 i.val * 4#32)) 15#32 = Cert.W4.nibAt w i := by
  fin_cases i <;> rfl

/-- A scalar constant broadcast to any shape reads the constant. -/
theorem bcast_const {t : Shape} (h : S_.BroadcastsInDim t (![] : Fin 0 → Fin t.rank)) (c : BitVec 32) (j : t.Idx) :
    broadcastInDim t ![] h (constantI S_ 32 c) j = c := rfl

/-- The packed words spread along a new last axis of eight: position (o, p, i) reads word (o, p). -/
theorem bcast_words (h1 : S11008x512.BroadcastsInDim S11008x512x1 (![0, 1] : Fin 2 → Fin S11008x512x1.rank))
    (h2 : S11008x512x1.BroadcastsInDim S11008x512x8 (![0, 1, 2] : Fin 3 → Fin S11008x512x8.rank))
    (qw : IVec S11008x512 32) (o : Fin 11008) (p : Fin 512) (i : Fin 8) :
    broadcastInDim S11008x512x8 ![0, 1, 2] h2 (broadcastInDim S11008x512x1 ![0, 1] h1 qw) (ix3 o p i) = qw (ix2 o p) := by
  refine (broadcastInDim_apply _ h2 _ (ix3 o p i) (ix3 o p (0 : Fin 1)) ?_).trans ?_
  · intro a
    match a with
    | ⟨0, _⟩ => rfl
    | ⟨1, _⟩ => rfl
    | ⟨2, _⟩ => rfl
  · refine broadcastInDim_apply _ h1 _ (ix3 o p (0 : Fin 1)) (ix2 o p) ?_
    intro a
    match a with
    | ⟨0, _⟩ => rfl
    | ⟨1, _⟩ => rfl

/-- The eight shift amounts spread over rows and words: position (o, p, i) reads amount i. -/
theorem bcast_shifts (h1 : S8.BroadcastsInDim S1x1x8 (![2] : Fin 1 → Fin S1x1x8.rank))
    (h2 : S1x1x8.BroadcastsInDim S11008x512x8 (![0, 1, 2] : Fin 3 → Fin S11008x512x8.rank))
    (v : IVec S8 32) (o : Fin 11008) (p : Fin 512) (i : Fin 8) :
    broadcastInDim S11008x512x8 ![0, 1, 2] h2 (broadcastInDim S1x1x8 ![2] h1 v) (ix3 o p i) = v (ix1 i) := by
  refine (broadcastInDim_apply _ h2 _ (ix3 o p i) (ix3 (0 : Fin 1) (0 : Fin 1) i) ?_).trans ?_
  · intro a
    match a with
    | ⟨0, _⟩ => rfl
    | ⟨1, _⟩ => rfl
    | ⟨2, _⟩ => rfl
  · refine broadcastInDim_apply _ h1 _ (ix3 (0 : Fin 1) (0 : Fin 1) i) (ix1 i) ?_
    intro a
    match a with
    | ⟨0, _⟩ => rfl

/-- The unpacked weights at row o, logical column k: nibble k mod 8 of word k / 8. -/
theorem qI_apply (qw : IVec S11008x512 32) (o : Fin 11008) (k : Fin 4096) :
    Term.qI qw (ix2 o k) = Cert.W4.nibAt (qw (ix2 o (Cert.W4.wordOf k))) (Cert.W4.nibOf k) := by
  unfold Term.qI
  refine (shapeCast_apply _ _ (ix2 o k) (ix3 o (Cert.W4.wordOf k) (Cert.W4.nibOf k)) ?_).trans ?_
  · rw [Shape.rowMajor_val_three, Shape.rowMajor_val_two]
    show (o.val * 512 + k.val / 8) * 8 + k.val % 8 = o.val * 4096 + k.val
    omega
  · show IntOp.andi (IntOp.shrsi .host _ _) _ = _
    rw [bcast_words, bcast_shifts, bcast_const, shifts_apply]
    exact nib_eq _ _

/-- The packed zero-point words spread along a new last axis of eight: position (o, p, i) reads word (o, p). -/
theorem bcast_zwords (h1 : S11008x4.BroadcastsInDim S11008x4x1 (![0, 1] : Fin 2 → Fin S11008x4x1.rank))
    (h2 : S11008x4x1.BroadcastsInDim S11008x4x8 (![0, 1, 2] : Fin 3 → Fin S11008x4x8.rank))
    (qz : IVec S11008x4 32) (o : Fin 11008) (p : Fin 4) (i : Fin 8) :
    broadcastInDim S11008x4x8 ![0, 1, 2] h2 (broadcastInDim S11008x4x1 ![0, 1] h1 qz) (ix3 o p i) = qz (ix2 o p) := by
  refine (broadcastInDim_apply _ h2 _ (ix3 o p i) (ix3 o p (0 : Fin 1)) ?_).trans ?_
  · intro a
    match a with
    | ⟨0, _⟩ => rfl
    | ⟨1, _⟩ => rfl
    | ⟨2, _⟩ => rfl
  · refine broadcastInDim_apply _ h1 _ (ix3 o p (0 : Fin 1)) (ix2 o p) ?_
    intro a
    match a with
    | ⟨0, _⟩ => rfl
    | ⟨1, _⟩ => rfl

/-- The eight shift amounts spread over rows and zero-point words: position (o, p, i) reads amount i. -/
theorem bcast_zshifts (h1 : S8.BroadcastsInDim S1x1x8 (![2] : Fin 1 → Fin S1x1x8.rank))
    (h2 : S1x1x8.BroadcastsInDim S11008x4x8 (![0, 1, 2] : Fin 3 → Fin S11008x4x8.rank))
    (v : IVec S8 32) (o : Fin 11008) (p : Fin 4) (i : Fin 8) :
    broadcastInDim S11008x4x8 ![0, 1, 2] h2 (broadcastInDim S1x1x8 ![2] h1 v) (ix3 o p i) = v (ix1 i) := by
  refine (broadcastInDim_apply _ h2 _ (ix3 o p i) (ix3 (0 : Fin 1) (0 : Fin 1) i) ?_).trans ?_
  · intro a
    match a with
    | ⟨0, _⟩ => rfl
    | ⟨1, _⟩ => rfl
    | ⟨2, _⟩ => rfl
  · refine broadcastInDim_apply _ h1 _ (ix3 (0 : Fin 1) (0 : Fin 1) i) (ix1 i) ?_
    intro a
    match a with
    | ⟨0, _⟩ => rfl

/-- The unpacked zero points at row o, group g: nibble g mod 8 of word g / 8. -/
theorem zpI_apply (qz : IVec S11008x4 32) (o : Fin 11008) (g : Fin 32) :
    Term.zpI qz (ix2 o g) = Cert.W4.nibAt (qz (ix2 o (Cert.W4.zwordOf g))) (Cert.W4.znibOf g) := by
  unfold Term.zpI
  refine (shapeCast_apply _ _ (ix2 o g) (ix3 o (Cert.W4.zwordOf g) (Cert.W4.znibOf g)) ?_).trans ?_
  · rw [Shape.rowMajor_val_three, Shape.rowMajor_val_two]
    show (o.val * 4 + g.val / 8) * 8 + g.val % 8 = o.val * 32 + g.val
    omega
  · show IntOp.andi (IntOp.shrsi .host _ _) _ = _
    rw [bcast_zwords, bcast_zshifts, bcast_const, shifts_apply]
    exact nib_eq _ _

/-- The weights as extended reals: the spec's quantised weight. -/
theorem qF_apply (qw : IVec S11008x512 32) (o : Fin 11008) (k : Fin 4096) :
    Term.qF (F := Ideal) qw (ix2 o k) = Cert.W4.qE qw o k := by
  show (((Term.qI qw (ix2 o k)).toInt : ℝ) : EReal) = _
  rw [qI_apply]
  rfl

/-- The zero points as extended reals: the spec's zero point. -/
theorem zpF_apply (qz : IVec S11008x4 32) (o : Fin 11008) (g : Fin 32) :
    Term.zpF (F := Ideal) qz (ix2 o g) = Cert.W4.zpE qz o g := by
  show (((Term.zpI qz (ix2 o g)).toInt : ℝ) : EReal) = _
  rw [zpI_apply]
  rfl

/-- Each column's group index is its position divided by 128, as a word. -/
theorem gid_apply (k : Fin 4096) : Term.gid (ix1 k) = BitVec.ofNat 32 (k.val / 128) := by
  have hk : (BitVec.ofNat 32 k.val).toNat = k.val := Cert.LibWordDiv.toNat_ofNat_of_lt _ (by have := k.isLt; omega)
  have h : Term.gid (ix1 k) = Cert.LibWordDiv.floorDivW (BitVec.ofNat 32 k.val) 128#32 := rfl
  rw [h, Cert.LibWordDiv.floorDivW_eq _ _ (by rw [hk]; have := k.isLt; omega) (by decide) (by decide), hk]
  rfl

/-- The wrap of a negative index changes nothing: the start index of column k is k / 128. -/
theorem gidCol_apply (k : Fin 4096) : Term.gidCol (ix2 k (0 : Fin 1)) = BitVec.ofNat 32 (k.val / 128) := by
  unfold Term.gidCol
  refine (broadcastInDim_apply _ _ _ (ix2 k (0 : Fin 1)) (ix1 k) ?_).trans ?_
  · intro a
    match a with
    | ⟨0, _⟩ => rfl
  · show Scalar.select (IntOp.cmpi .slt (Term.gid (ix1 k)) 0#32) (IntOp.addi (Term.gid (ix1 k)) 32#32) (Term.gid (ix1 k)) = _
    rw [gid_apply]
    refine Cert.LibWordDiv.wrapW_eq _ _ ?_
    rw [Cert.LibWordDiv.toNat_ofNat_of_lt _ (by have := k.isLt; omega)]
    have := k.isLt; omega

/-- The gather's dimension numbers. -/
abbrev GD : GatherDims S11008x32 S4096x1 S11008x4096 := gather_S11008x32_S4096x1_S11008x4096_0_1_n_n_1_1_110081

/-- On the row axis the gather reads the result's own row. -/
theorem gather_row {w : Nat} (idx : IVec S4096x1 w) (o : Fin 11008) (k : Fin 4096) :
    (GD.operandIdx (ix2 o k) idx 0).val = o.val := by
  show GD.start (ix2 o k) idx 0 + GD.batchCoord (ix2 o k) 0 + GD.offCoord (ix2 o k) 0 = o.val
  have h0 : (0 : Fin 2) ∉ GD.startIndexMap := by show (0 : Fin 2) ∉ [1]; decide
  have hk : (0 : Fin 2) ∈ GD.sKept := by decide
  rw [GatherDims.batchCoord_eq_zero _ _ _ List.not_mem_nil]
  unfold GatherDims.start GatherDims.offCoord
  rw [dif_neg h0, dif_pos hk, Nat.zero_add]
  rfl

/-- On the group axis the gather reads the start index of the result's column, read signed and clamped to 0 … 31. -/
theorem gather_col {w : Nat} (idx : IVec S4096x1 w) (o : Fin 11008) (k : Fin 4096) :
    (GD.operandIdx (ix2 o k) idx 1).val = min (idx (ix2 k (0 : Fin 1))).toInt.toNat 31 := by
  show GD.start (ix2 o k) idx 1 + GD.batchCoord (ix2 o k) 1 + GD.offCoord (ix2 o k) 1 = _
  have h1 : (1 : Fin 2) ∈ GD.startIndexMap := by show (1 : Fin 2) ∈ [1]; decide
  have hk : (1 : Fin 2) ∉ GD.sKept := by decide
  rw [GatherDims.batchCoord_eq_zero _ _ _ List.not_mem_nil, GatherDims.offCoord_eq_zero _ _ _ hk]
  unfold GatherDims.start
  rw [dif_pos h1]
  have hsi : GD.siIdx (ix2 o k) ⟨List.idxOf (1 : Fin 2) GD.startIndexMap, List.idxOf_lt_length_iff.2 h1⟩
      = ix2 k (0 : Fin 1) := by
    funext b; refine Fin.ext ?_
    match b with
    | ⟨0, _⟩ => rfl
    | ⟨1, _⟩ => rfl
  rw [hsi]
  rfl

/-- A per-group table spread over the columns: column k reads its group's entry. -/
theorem spread_apply {F : FTy → Type} [FloatOps F] (tab : FVec F S11008x32 .f32) (o : Fin 11008) (k : Fin 4096) :
    Term.spread tab (ix2 o k) = tab (ix2 o (Cert.W4.groupOf k)) := by
  show tab (GD.operandIdx (ix2 o k) Term.gidCol) = _
  congr 1
  funext a; refine Fin.ext ?_
  match a with
  | ⟨0, _⟩ => exact gather_row _ o k
  | ⟨1, _⟩ =>
    refine (gather_col _ o k).trans ?_
    rw [gidCol_apply, StableHlo.Predicate.toInt_ofNat_small _ (by have := k.isLt; omega)]
    show min ((k.val / 128 : ℕ) : ℤ).toNat 31 = k.val / 128
    have := k.isLt
    omega

/-- The contraction's dimension numbers. -/
abbrev DD : DotDims S8x4096 S11008x4096 S8x11008 := dot_S8x4096_S11008x4096_S8x11008_1_1_0_0_n_n

/-- The left operand is read at the result's row … -/
theorem lhs_0 (a : Fin 8) (o : Fin 11008) (q : DD.contr.Idx) : (DD.lhsIdx (ix2 a o) q 0).val = a.val := rfl
/-- … and at the contraction position. -/
theorem lhs_1 (a : Fin 8) (o : Fin 11008) (q : DD.contr.Idx) :
    (DD.lhsIdx (ix2 a o) q 1).val = (q ⟨0, by decide⟩).val := rfl
/-- The right operand is read at the result's column … -/
theorem rhs_0 (a : Fin 8) (o : Fin 11008) (q : DD.contr.Idx) : (DD.rhsIdx (ix2 a o) q 0).val = o.val := rfl
/-- … and at the contraction position. -/
theorem rhs_1 (a : Fin 8) (o : Fin 11008) (q : DD.contr.Idx) :
    (DD.rhsIdx (ix2 a o) q 1).val = (q ⟨0, by decide⟩).val := rfl

/-- The dequantised weight at row o, column k. -/
theorem wF_apply (qw : IVec S11008x512 32) (qz : IVec S11008x4 32) (sc : FVec Ideal S11008x32 .f32)
    (o : Fin 11008) (k : Fin 4096) :
    Term.wF (F := Ideal) qw qz sc (ix2 o k)
      = (Cert.W4.qE qw o k - Cert.W4.zpE qz o (Cert.W4.groupOf k)) * sc (ix2 o (Cert.W4.groupOf k)) := by
  show (Term.qF (F := Ideal) qw (ix2 o k) - Term.spread (Term.zpF (F := Ideal) qz) (ix2 o k)) * Term.spread sc (ix2 o k) = _
  rw [qF_apply, spread_apply, spread_apply, zpF_apply]

theorem res_eq (x : FVec Ideal S8x4096 .f32) (qw : IVec S11008x512 32) (qz : IVec S11008x4 32)
    (sc : FVec Ideal S11008x32 .f32) :
    Term.res (F := Ideal) x qw qz sc = Cert.W4.G x qw qz sc := by
  funext j
  obtain ⟨a, o, rfl⟩ : ∃ (a : Fin 8) (o : Fin 11008), j = ix2 a o := ⟨j 0, j 1, eq_ix2 j⟩
  show FloatOps.dotGeneral DD none .single x (Term.wF qw qz sc) (ix2 a o) = Cert.W4.Gat x qw qz sc a o
  rw [Ideal.dotGeneral_apply, ← Equiv.sum_comp (contrEquiv1 DD 4096 rfl rfl).symm]
  unfold Cert.W4.Gat
  refine Finset.sum_congr rfl fun c _ => ?_
  have c2 := contrEquiv1_symm_val DD 4096 rfl rfl c
  have l2 : DD.lhsIdx (ix2 a o) ((contrEquiv1 DD 4096 rfl rfl).symm c) = ix2 a c := by
    funext ax; apply Fin.ext
    match ax with
    | ⟨0, _⟩ => exact lhs_0 a o _
    | ⟨1, _⟩ => exact (lhs_1 a o _).trans c2
  have r2 : DD.rhsIdx (ix2 a o) ((contrEquiv1 DD 4096 rfl rfl).symm c) = ix2 o c := by
    funext ax; apply Fin.ext
    match ax with
    | ⟨0, _⟩ => exact rhs_0 a o _
    | ⟨1, _⟩ => exact (rhs_1 a o _).trans c2
  rw [l2, r2, wF_apply]

end Cert.ReferenceIdeal.Read

end
-- ==== Proof.KerTerm.lean ====
/-
  What the kernel's program computes on the host before its one launch, composed into pure terms of the argument
  arrays: the packed weights, the packed zero points and the scales padded by 256 zero rows; the zero points
  unpacked and multiplied by the scales; x rearranged plane by plane (columns 8p+i gathered at position 512i+p);
  the group sums of x; and the 0/1 selector of each word's group (a floor division by 16 compared with an iota).
-/
import proofs.«421893_j46686294507979_3_alg».proof.KernelIdeal

noncomputable section

namespace Cert.KernelIdeal.Term

open Idealize.ShloMosaic Cert.KernelIdeal Cert.KernelIdeal.Facts₀

variable {F : FTy → Type} [FloatOps F] [Facts]

/-- The packed weights with 256 rows of zero words below. -/
def qwPad (qw : IVec S11008x512 32) : IVec S11264x512 32 :=
  pad S11264x512 ![0, 0] ![256, 0] ![0, 0] qw (id (constantI S_ 32 0#32)) pads_S11008x512_S11264x512_02560_000 h_S_

/-- The packed zero points with 256 rows of zero words below. -/
def qzPad (qz : IVec S11008x4 32) : IVec S11264x4 32 :=
  pad S11264x4 ![0, 0] ![256, 0] ![0, 0] qz (id (constantI S_ 32 0#32)) pads_S11008x4_S11264x4_02560_000 h_S_

/-- The scales with 256 rows of zeros (the integer zero converted) below. -/
def scPad (sc : FVec F S11008x32 .f32) : FVec F S11264x32 .f32 :=
  pad S11264x32 ![0, 0] ![256, 0] ![0, 0] sc (sitofp .f32 (constantI S_ 32 0#32) : FVec F S_ .f32)
    pads_S11008x32_S11264x32_02560_000 h_S_

/-- The eight shift amounts 0, 4, …, 28: an iota times four. -/
def shifts : IVec S8 32 :=
  muli (iotaInDim S8 32 0) (broadcastInDim S8 ![] bcast_S_S8 (constantI S_ 32 4#32))

/-- The zero points unpacked, [11264, 4, 8] laid out as [11264, 32], as floats. -/
def zpF (qz : IVec S11008x4 32) : FVec F S11264x32 .f32 :=
  sitofp .f32
    (shapeCast S11264x32
      (andi
        (Host.shrsi
          (broadcastInDim S11264x4x8 ![0, 1, 2] bcast_S11264x4x1_S11264x4x8_0_1_2
            (broadcastInDim S11264x4x1 ![0, 1] bcast_S11264x4_S11264x4x1_0_1 (qzPad qz)))
          (broadcastInDim S11264x4x8 ![0, 1, 2] bcast_S1x1x8_S11264x4x8_0_1_2
            (broadcastInDim S1x1x8 ![2] bcast_S8_S1x1x8_2 shifts)))
        (broadcastInDim S11264x4x8 ![] bcast_S_S11264x4x8 (constantI S_ 32 15#32)))
      shapeCasts_S11264x4x8_S11264x32)

/-- Zero point times scale, per output row and group. -/
def zsF (qz : IVec S11008x4 32) (sc : FVec F S11008x32 .f32) : FVec F S11264x32 .f32 :=
  mulf (zpF qz) (scPad sc)

/-- x rearranged plane by plane: [8, 4096] as [8, 512, 8], the last two axes exchanged, flattened again. -/
def xperm (x : FVec F S8x4096 .f32) : FVec F S8x4096 .bf16 :=
  truncf .bf16
    (shapeCast S8x4096
      (transpose S8x8x512 [0, 2, 1] (shapeCast S8x512x8 x shapeCasts_S8x4096_S8x512x8)
        transposes_S8x512x8_S8x8x512_0_2_1)
      shapeCasts_S8x8x512_S8x4096)
    bitsLt_bf16_f32

/-- The group sums of x: [8, 4096] as [8, 32, 128] summed over the last axis from zero. -/
def xsum (x : FVec F S8x4096 .f32) : FVec F S8x32 .f32 :=
  Host.reduceAdd (shapeCast S8x32x128 x shapeCasts_S8x4096_S8x32x128) (constant S_ .f32 0x00000000#32)
    reducesTo_S8x32x128_S8x32_d2 h_S_

/-- Floor division of a row of 512 words by a scalar word, operation by operation. -/
def floorDivBy (v : IVec S1x512 32) (d : IVec S_ 32) : IVec S1x512 32 :=
  let v0 : IVec S_ 32 := id d
  let v1 : IVec S1x512 32 := broadcastInDim S1x512 ![] bcast_S_S1x512 v0
  let v2 : IVec S1x512 32 := Host.divsi v v1
  let v3 : IVec S1x512 32 := signi v
  let v4 : IVec S_ 32 := signi v0
  let v5 : IVec S1x512 32 := broadcastInDim S1x512 ![] bcast_S_S1x512 v4
  let v6 : IVec S1x512 1 := cmpi .ne v3 v5
  let v7 : IVec S1x512 32 := broadcastInDim S1x512 ![] bcast_S_S1x512 v0
  let v8 : IVec S1x512 32 := Host.remsi v v7
  let c : IVec S_ 32 := constantI S_ 32 0#32
  let v9 : IVec S1x512 32 := broadcastInDim S1x512 ![] bcast_S_S1x512 c
  let v10 : IVec S1x512 1 := cmpi .ne v8 v9
  let v11 : IVec S1x512 1 := andi v6 v10
  let c_0 : IVec S_ 32 := constantI S_ 32 1#32
  let v12 : IVec S1x512 32 := broadcastInDim S1x512 ![] bcast_S_S1x512 c_0
  let v13 : IVec S1x512 32 := subi v2 v12
  select v11 v13 v2

/-- Each word's group: its position divided by 16. -/
def wordGroup : IVec S1x512 32 :=
  floorDivBy (broadcastInDim S1x512 ![1] bcast_S512_S1x512_1 (iotaInDim S512 32 0)) (constantI S_ 32 16#32)

/-- The selector: 1.0 where the row's group number equals the word's group, else 0.0. -/
def sel : FVec F S32x512 .f32 :=
  uitofp .f32
    (cmpi .eq
      (broadcastInDim S32x512 ![0, 1] bcast_S32x1_S32x512_0_1
        (broadcastInDim S32x1 ![0] bcast_S32_S32x1_0 (iotaInDim S32 32 0)))
      (broadcastInDim S32x512 ![0, 1] bcast_S1x512_S32x512_0_1 wordGroup))

end Cert.KernelIdeal.Term

end
-- ==== Proof.KerValue.lean ====
/-
  The kernel program's run with its result named: each entry of the result array is what the body leaves, at the
  entry's position inside its tile of 1024 output rows, from the host-prefix terms' blocks of that tile.
-/
import proofs.«421893_j46686294507979_3_alg».proof.Proof.Gen.KernelIdeal.Frame
import proofs.«421893_j46686294507979_3_alg».proof.Proof.KerTerm
import proofs.«421893_j46686294507979_3_alg».proof.Proof.Spec
import Idealize.ShloMosaic.Lib.ValueIdx
import Idealize.ShloMosaic.Lib.Pipeline.Value
import Idealize.ShloMosaic.Lib.StableHlo.Run

noncomputable section

namespace Cert.KernelIdeal.Val

open Cert.KernelIdeal Cert.KernelIdeal.Gen Idealize.ShloMosaic Idealize.ShloMosaic.TcCoe Idealize.SL.Sem Idealize.ShloMosaic.ValueIdx

variable {F : FTy → Type} [FloatOps F]

/-- Tile t's 1024 rows of an array of 11264 rows. -/
def tileBlock {α : Type} {n : Nat} (A : (⟨2, ![11264, n]⟩ : Shape).Idx → α) (t : Fin 11) :
    (⟨2, ![1024, n]⟩ : Shape).Idx → α :=
  fun y => A (ix2 (Cert.W4.tileRow t (y 0)) (y 1))

/-- The kernel program's result array as a function of the four argument arrays. -/
def kres (x : FVec F S8x4096 .f32) (qw : IVec S11008x512 32) (qz : IVec S11008x4 32) (sc : FVec F S11008x32 .f32) :
    FVec F S8x11008 .f32 :=
  fun j => Gen.out0_6 (Term.xperm x) (Term.xsum x) (tileBlock (Term.qwPad qw) (Cert.W4.tileOf (j 1)))
    (tileBlock (Term.scPad sc) (Cert.W4.tileOf (j 1))) (tileBlock (Term.zsF qz sc) (Cert.W4.tileOf (j 1))) Term.sel
    (ix2 (j 0) (Cert.W4.inTile (j 1)))

/-! ## From the blocks to the array

The launch walks eleven points. At point t the body sees the whole rearranged x, the whole group sums and the whole
selector, and tile t (rows 1024·t … 1024·t + 1023) of the padded weights, scales and zero points times scales; what it
leaves is written to columns 1024·t … 1024·t + 1023 of an [8, 11264] array. The eleven column blocks tile that array,
so it ends holding ONE function of the six arrays the launch reads: column o from tile o / 1024 at position o mod 1024.
The operation after the launch keeps columns 0 … 11007, and the six arrays are the host-prefix terms of the four
arguments. -/

section Blocks

variable (m : (ℓ : Loc nD τ sig) → Buf (Elt F) ℓ)

/-! ### The six arrays the launch reads, as terms of the arguments -/

/-- The first window's array: x rearranged plane by plane. -/
theorem V_xperm (c : Dev nD) :
    (V m c main_v19 : FVec F S8x4096 .bf16) = Term.xperm (m ((c.tc : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  open StableHlo in after_results
  rfl

/-- The second window's array: the group sums of x. -/
theorem V_xsum (c : Dev nD) :
    (V m c main_v21 : FVec F S8x32 .f32) = Term.xsum (m ((c.tc : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  open StableHlo in after_results
  rfl

/-- The third window's array: the packed weights, padded. -/
theorem V_qwPad (c : Dev nD) :
    (V m c main_v0 : IVec S11264x512 32) = Term.qwPad (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  open StableHlo in after_results
  rfl

/-- The fourth window's array: the scales, padded. -/
theorem V_scPad (c : Dev nD) :
    (V m c main_v2 : FVec F S11264x32 .f32) = Term.scPad (m ((c.tc : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  open StableHlo in after_results
  rfl

/-- The fifth window's array: zero point times scale. -/
theorem V_zsF (c : Dev nD) :
    (V m c main_v15 : FVec F S11264x32 .f32)
      = Term.zsF (m ((c.tc : Thread nD τ).loc main_arg2)) (m ((c.tc : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  open StableHlo in after_results_simp
  rfl

/-- The sixth window's array: the group selector. -/
theorem V_sel (c : Dev nD) : (V m c main_v30 : FVec F S32x512 .f32) = Term.sel := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  open StableHlo in after_results_simp
  rfl

/-! ### Each window's block at a point -/

/-- The printed index maps, decided over the eleven grid points: the first, second and sixth windows always sit at
    block (0, 0); the third, fourth and fifth at block (t, 0); the result's at block (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- A grid point as a tile number. -/
def tileAt (t : Fin cfg0.N) : Fin 11 := ⟨t.val, lt_of_lt_of_eq t.isLt N_0⟩

/-- The first window's block is its whole array at every point. -/
theorem blk_xperm (c : Dev nD) (t : Fin cfg0.N) : (iblk m c 0 t : Vec F S8x4096 .bf16) = V m c main_v19 := by
  obtain ⟨e0, e1, -⟩ := idx_facts t
  funext y
  show V m c main_v19 (((cfg0.win 0).blk t).view.emb y) = V m c main_v19 y
  have h : ((cfg0.win 0).blk t).view.emb y = y := by
    funext a; apply Fin.ext
    match a with
    | ⟨0, _⟩ => show win0_0.index t (0 : Fin 2) * 8 + 1 * (y 0).val = (y 0).val; omega
    | ⟨1, _⟩ => show win0_0.index t (1 : Fin 2) * 4096 + 1 * (y 1).val = (y 1).val; omega
  rw [h]

/-- The second window's block is its whole array at every point. -/
theorem blk_xsum (c : Dev nD) (t : Fin cfg0.N) : (iblk m c 1 t : Vec F S8x32 .f32) = V m c main_v21 := by
  obtain ⟨-, -, e0, e1, -⟩ := idx_facts t
  funext y
  show V m c main_v21 (((cfg0.win 1).blk t).view.emb y) = V m c main_v21 y
  have h : ((cfg0.win 1).blk t).view.emb y = y := by
    funext a; apply Fin.ext
    match a with
    | ⟨0, _⟩ => show win0_1.index t (0 : Fin 2) * 8 + 1 * (y 0).val = (y 0).val; omega
    | ⟨1, _⟩ => show win0_1.index t (1 : Fin 2) * 32 + 1 * (y 1).val = (y 1).val; omega
  rw [h]

/-- The third window's block at point t is tile t of the padded packed weights. -/
theorem blk_qw (c : Dev nD) (t : Fin cfg0.N) :
    (iblk m c 2 t : Vec F S1024x512 .i32) = tileBlock (V m c main_v0 : Vec F S11264x512 .i32) (tileAt t) := by
  obtain ⟨-, -, -, -, e0, e1, -⟩ := idx_facts t
  funext y
  show V m c main_v0 (((cfg0.win 2).blk t).view.emb y) = V m c main_v0 (ix2 (Cert.W4.tileRow (tileAt t) (y 0)) (y 1))
  have h : ((cfg0.win 2).blk t).view.emb y = ix2 (Cert.W4.tileRow (tileAt t) (y 0)) (y 1) := by
    funext a; apply Fin.ext
    match a with
    | ⟨0, _⟩ => show win0_2.index t (0 : Fin 2) * 1024 + 1 * (y 0).val = 1024 * t.val + (y 0).val; omega
    | ⟨1, _⟩ => show win0_2.index t (1 : Fin 2) * 512 + 1 * (y 1).val = (y 1).val; omega
  exact congrArg (V m c main_v0) h

/-- The fourth window's block at point t is tile t of the padded scales. -/
theorem blk_sc (c : Dev nD) (t : Fin cfg0.N) :
    (iblk m c 3 t : Vec F S1024x32 .f32) = tileBlock (V m c main_v2 : Vec F S11264x32 .f32) (tileAt t) := by
  obtain ⟨-, -, -, -, -, -, e0, e1, -⟩ := idx_facts t
  funext y
  show V m c main_v2 (((cfg0.win 3).blk t).view.emb y) = V m c main_v2 (ix2 (Cert.W4.tileRow (tileAt t) (y 0)) (y 1))
  have h : ((cfg0.win 3).blk t).view.emb y = ix2 (Cert.W4.tileRow (tileAt t) (y 0)) (y 1) := by
    funext a; apply Fin.ext
    match a with
    | ⟨0, _⟩ => show win0_3.index t (0 : Fin 2) * 1024 + 1 * (y 0).val = 1024 * t.val + (y 0).val; omega
    | ⟨1, _⟩ => show win0_3.index t (1 : Fin 2) * 32 + 1 * (y 1).val = (y 1).val; omega
  exact congrArg (V m c main_v2) h

/-- The fifth window's block at point t is tile t of the zero points times scales. -/
theorem blk_zs (c : Dev nD) (t : Fin cfg0.N) :
    (iblk m c 4 t : Vec F S1024x32 .f32) = tileBlock (V m c main_v15 : Vec F S11264x32 .f32) (tileAt t) := by
  obtain ⟨-, -, -, -, -, -, -, -, e0, e1, -⟩ := idx_facts t
  funext y
  show V m c main_v15 (((cfg0.win 4).blk t).view.emb y) = V m c main_v15 (ix2 (Cert.W4.tileRow (tileAt t) (y 0)) (y 1))
  have h : ((cfg0.win 4).blk t).view.emb y = ix2 (Cert.W4.tileRow (tileAt t) (y 0)) (y 1) := by
    funext a; apply Fin.ext
    match a with
    | ⟨0, _⟩ => show win0_4.index t (0 : Fin 2) * 1024 + 1 * (y 0).val = 1024 * t.val + (y 0).val; omega
    | ⟨1, _⟩ => show win0_4.index t (1 : Fin 2) * 32 + 1 * (y 1).val = (y 1).val; omega
  exact congrArg (V m c main_v15) h

/-- The sixth window's block is its whole array at every point. -/
theorem blk_sel (c : Dev nD) (t : Fin cfg0.N) : (iblk m c 5 t : Vec F S32x512 .f32) = V m c main_v30 := by
  obtain ⟨-, -, -, -, -, -, -, -, -, -, e0, e1, -⟩ := idx_facts t
  funext y
  show V m c main_v30 (((cfg0.win 5).blk t).view.emb y) = V m c main_v30 y
  have h : ((cfg0.win 5).blk t).view.emb y = y := by
    funext a; apply Fin.ext
    match a with
    | ⟨0, _⟩ => show win0_5.index t (0 : Fin 2) * 32 + 1 * (y 0).val = (y 0).val; omega
    | ⟨1, _⟩ => show win0_5.index t (1 : Fin 2) * 512 + 1 * (y 1).val = (y 1).val; omega
  rw [h]

/-! ### The array over all padded columns, and what a point writes of it -/

/-- The tile of 1024 columns that holds column o of the 11264 padded columns. -/
def tOf (o : Fin 11264) : Fin 11 := ⟨o.val / 1024, by have := o.isLt; omega⟩
/-- Column o's position inside its tile. -/
def jOf (o : Fin 11264) : Fin 1024 := ⟨o.val % 1024, Nat.mod_lt _ (by decide)⟩

/-- The result over all 11264 padded columns, as one function of the six arrays the launch reads: column o is what
    the body leaves at position o mod 1024 from the blocks of tile o / 1024. -/
def kfull (x0 : Vec F S8x4096 .bf16) (x1 : Vec F S8x32 .f32) (A2 : Vec F S11264x512 .i32) (A3 A4 : Vec F S11264x32 .f32)
    (x5 : Vec F S32x512 .f32) : Vec F S8x11264 .f32 :=
  fun i => Gen.out0_6 x0 x1 (tileBlock A2 (tOf (i 1))) (tileBlock A3 (tOf (i 1))) (tileBlock A4 (tOf (i 1))) x5
    (ix2 (i 0) (jOf (i 1)))

/-- At column 1024·t + j it reads tile t at position j. -/
theorem kfull_tile (x0 : Vec F S8x4096 .bf16) (x1 : Vec F S8x32 .f32) (A2 : Vec F S11264x512 .i32)
    (A3 A4 : Vec F S11264x32 .f32) (x5 : Vec F S32x512 .f32) (t : Fin 11) (y : S8x1024.Idx) (i : S8x11264.Idx)
    (h0 : (i 0).val = (y 0).val) (h1 : (i 1).val = 1024 * t.val + (y 1).val) :
    kfull x0 x1 A2 A3 A4 x5 i
      = Gen.out0_6 x0 x1 (tileBlock A2 t) (tileBlock A3 t) (tileBlock A4 t) x5 y := by
  have hy : (y 1).val < 1024 := (y 1).isLt
  have et : tOf (i 1) = t := Fin.ext (by show (i 1).val / 1024 = t.val; omega)
  have ej : (ix2 (i 0) (jOf (i 1)) : S8x1024.Idx) = y := by
    funext a; apply Fin.ext
    match a with
    | ⟨0, _⟩ => exact h0
    | ⟨1, _⟩ => show (i 1).val % 1024 = (y 1).val; omega
  show Gen.out0_6 x0 x1 (tileBlock A2 (tOf (i 1))) (tileBlock A3 (tOf (i 1))) (tileBlock A4 (tOf (i 1))) x5
    (ix2 (i 0) (jOf (i 1))) = _
  rw [et, ej]

/-- The result array over the padded columns, of the arrays as the launch finds them. -/
abbrev arr (c : Dev nD) : Vec F S8x11264 .f32 :=
  kfull (V m c main_v19) (V m c main_v21) (V m c main_v0) (V m c main_v2) (V m c main_v15) (V m c main_v30)

/-- Reading any array of the result's shape through point t's block reads it at the block's embedding. -/
theorem read_out_blk (G : Vec F S8x11264 .f32) (t : Fin cfg0.N) (y : ((cfg0.win 6).xblock (cfg0.grid.coords t)).Idx) :
    ((cfg0.win 6).blk t).view.read (Elt F) G y = G (((cfg0.win 6).blk t).view.emb y) := rfl

/-- What point t writes back is block (0, t) of that array. -/
theorem flushed_eq (c : Dev nD) (t : Fin cfg0.N) :
    (dats m 0 c).flushed 6 t = ((cfg0.win 6).blk t).view.read (Elt F) (arr m c) := by
  show (cfg0.win 6).cut (grid0.coords t) ((dats m 0 c).after 6 t) = _
  rw [after0_6, blk_xperm m c t, blk_xsum m c t, blk_qw m c t, blk_sc m c t, blk_zs m c t, blk_sel m c t]
  obtain ⟨-, -, -, -, -, -, -, -, -, -, -, -, e0, e1⟩ := idx_facts t
  funext y
  refine Eq.trans ?_ (read_out_blk (arr m c) t y).symm
  refine (kfull_tile _ _ _ _ _ _ (tileAt t) _ _ ?_ ?_).symm
  · show win0_6.index t (0 : Fin 2) * 8 + 1 * (y 0).val = (y 0).val; omega
  · show win0_6.index t (1 : Fin 2) * 1024 + 1 * (y 1).val = 1024 * t.val + (y 1).val; omega

/-- An index of the array is in point t's block iff each coordinate is in the block's range on its axis. -/
theorem mem_blk (t : Fin cfg0.N) (i : S8x11264.Idx) :
    i ∈ ((cfg0.win 6).blk t).view.set ↔ ∀ a : Fin 2, win0_6.index t a * S8x1024.size a ≤ (i a).val
      ∧ (i a).val < win0_6.index t a * S8x1024.size a + S8x1024.size a := by
  show i ∈ ((View.whole main_v31).slice (win0_6.rect t)).set ↔ _
  rw [View.set_slice_whole, Rect.mem_set_unit]
  exact Iff.rfl

/-- The eleven blocks tile the 11264 columns: column o lies in the block of point o / 1024. So the array ends
    holding `arr`. -/
theorem final (c : Dev nD) : (dats m 0 c).arrAt 6 cfg0.N = arr m c :=
  (dats m 0 c).arrAt_eq_of_cover 6 (arr m c) (fun t _ => flushed_eq m c t) fun i => by
    have h0 : (i 0).val < 8 := (i 0).isLt
    have h1 : (i 1).val < 11264 := (i 1).isLt
    have hN : cfg0.N = 11 := N_0
    obtain ⟨t, ht⟩ : ∃ t : Fin cfg0.N, t.val = (i 1).val / 1024 := ⟨⟨(i 1).val / 1024, by omega⟩, rfl⟩
    obtain ⟨-, -, -, -, -, -, -, -, -, -, -, -, e0, e1⟩ := idx_facts t
    refine ⟨t, flush0_6 t, ?_⟩
    rw [mem_blk]
    intro a
    match a with
    | ⟨0, _⟩ =>
      show win0_6.index t (0 : Fin 2) * 8 ≤ (i 0).val ∧ (i 0).val < win0_6.index t (0 : Fin 2) * 8 + 8
      omega
    | ⟨1, _⟩ =>
      show win0_6.index t (1 : Fin 2) * 1024 ≤ (i 1).val ∧ (i 1).val < win0_6.index t (1 : Fin 2) * 1024 + 1024
      omega

/-! ### The slice after the launch, and the result in the arguments -/

/-- The padded-column tile and position of an unpadded column are the unpadded ones. -/
theorem kres_apply (x : FVec F S8x4096 .f32) (qw : IVec S11008x512 32) (qz : IVec S11008x4 32) (sc : FVec F S11008x32 .f32)
    (a : Fin 8) (o : Fin 11008) :
    kres x qw qz sc (ix2 a o)
      = kfull (Term.xperm x) (Term.xsum x) (Term.qwPad qw) (Term.scPad sc) (Term.zsF qz sc) Term.sel
          (ix2 a (Cert.W4.padRow o)) := rfl

/-- The array the launch leaves, in the host-prefix terms of the four arguments. -/
theorem arr_eq (c : Dev nD) :
    arr m c = kfull (Term.xperm (m ((c.tc : Thread nD τ).loc main_arg0))) (Term.xsum (m ((c.tc : Thread nD τ).loc main_arg0)))
      (Term.qwPad (m ((c.tc : Thread nD τ).loc main_arg1))) (Term.scPad (m ((c.tc : Thread nD τ).loc main_arg3)))
      (Term.zsF (m ((c.tc : Thread nD τ).loc main_arg2)) (m ((c.tc : Thread nD τ).loc main_arg3))) Term.sel := by
  show kfull (V m c main_v19) (V m c main_v21) (V m c main_v0) (V m c main_v2) (V m c main_v15) (V m c main_v30) = _
  rw [V_xperm m c, V_xsum m c, V_qwPad m c, V_scPad m c, V_zsF m c, V_sel m c]

/-- The one operation after the launch keeps the first 11008 columns: its result at (a, o) is the launch's array at
    (a, o). -/
theorem tail_apply (c : Dev nD) (a : Fin 8) (o : Fin 11008) :
    (Pipeline.afterTail₀ cfgs (dats m) 0 (V0 m) [hostOps1] c main_v32 : Vec F S8x11008 .f32) (ix2 a o)
      = arr m c (ix2 a (Cert.W4.padRow o)) := by
  unfold Pipeline.afterTail₀
  show StableHlo.after hostOps1 _ (Proc.devRef .tc main_v32) (ix2 a o) = _
  open StableHlo in after_results
  refine (extractStridedSlice_apply _ _ _ (ix2 a o) (ix2 a (Cert.W4.padRow o)) (fun b => ?_)).trans ?_
  · match b with
    | ⟨0, _⟩ => show a.val = 0 + a.val; omega
    | ⟨1, _⟩ => show o.val = 0 + o.val; omega
  · exact congrFun ((Pipeline.withArrays_arr spec0 launch0.win.arr_inj c _ _ 6).trans (final m c)) _

/-- The result buffer after the run is `kres` of the four arguments. -/
theorem out_eq (c : Dev nD) :
    (Pipeline.afterTail₀ cfgs (dats m) 0 (V0 m) [hostOps1] c main_v32 : Vec F S8x11008 .f32)
      = kres (m ((c.tc : Thread nD τ).loc main_arg0)) (m ((c.tc : Thread nD τ).loc main_arg1))
          (m ((c.tc : Thread nD τ).loc main_arg2)) (m ((c.tc : Thread nD τ).loc main_arg3)) := by
  funext j
  obtain ⟨a, o, rfl⟩ : ∃ (a : Fin 8) (o : Fin 11008), j = ix2 a o := ⟨j 0, j 1, eq_ix2 j⟩
  rw [tail_apply m c a o, kres_apply, arr_eq m c]

end Blocks

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = kres (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v32 (Pipeline.mem_restRefs_of main_v32 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Val

end
-- ==== Proof.KerBody.lean ====
/-
  What the kernel body leaves in its output block, read at an index at the ideal values: the plane-by-plane
  arrangement of Spec over the input blocks.
-/
import proofs.«421893_j46686294507979_3_alg».proof.Proof.Gen.KernelIdeal.Frame
import proofs.«421893_j46686294507979_3_alg».proof.Proof.Spec
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-! ## Loads through the literal rectangles -/

theorem zeros2 : (![0, 0] : Fin 2 → Nat) = fun _ => 0 := funext fun a => by fin_cases a <;> rfl

/-- A load of the [8,512] column slice at offset 512 i of the [8,4096] block reads the block at column 512 i + p. -/
theorem ld_slice (x0 : Vec Ideal S8x4096 .bf16) (off : Nat)
    (inb : ∀ b, (![0, off] : Fin 2 → Nat) b + S8x512.size b ≤ S8x4096.size b)
    (i : Fin 8) (h : off = 512 * i.val) (a : Fin 8) (p : Fin 512) :
    View.ld x0 (Rect.unit (s := S8x4096) ![0, off] S8x512.size inb) (ix2 a p) = x0 (ix2 a (Cert.W4.planeCol i p)) := by
  subst h
  show x0 _ = x0 _
  refine congrArg x0 (funext fun b => Fin.ext ?_)
  match b with
  | ⟨0, _⟩ => show 0 + 1 * a.val = a.val; omega
  | ⟨1, _⟩ => show 512 * i.val + 1 * p.val = 512 * i.val + p.val; omega

/-! ## The three matrix products, read at an index -/

theorem lhs_spread_0 (i : S1024x512.Idx) (q : dot_S1024x32_S32x512_S1024x512_1_0_0_1_n_n.contr.Idx) :
    (dot_S1024x32_S32x512_S1024x512_1_0_0_1_n_n.lhsIdx i q 0).val = (i 0).val := by
  unfold DotDims.lhsIdx
  rw [dif_neg (show ¬(0 : Fin S1024x32.rank) ∈ dot_S1024x32_S32x512_S1024x512_1_0_0_1_n_n.lhsBatch by decide), dif_pos (show (0 : Fin S1024x32.rank) ∈ dot_S1024x32_S32x512_S1024x512_1_0_0_1_n_n.lhsNonContracting by decide)]
  rfl
theorem lhs_spread_1 (i : S1024x512.Idx) (q : dot_S1024x32_S32x512_S1024x512_1_0_0_1_n_n.contr.Idx) :
    (dot_S1024x32_S32x512_S1024x512_1_0_0_1_n_n.lhsIdx i q 1).val = (q ⟨0, by decide⟩).val :=
  dot_S1024x32_S32x512_S1024x512_1_0_0_1_n_n.lhsIdx_val_of_single rfl i q
theorem rhs_spread_0 (i : S1024x512.Idx) (q : dot_S1024x32_S32x512_S1024x512_1_0_0_1_n_n.contr.Idx) :
    (dot_S1024x32_S32x512_S1024x512_1_0_0_1_n_n.rhsIdx i q 0).val = (q ⟨0, by decide⟩).val :=
  dot_S1024x32_S32x512_S1024x512_1_0_0_1_n_n.rhsIdx_val_of_single rfl i q
theorem rhs_spread_1 (i : S1024x512.Idx) (q : dot_S1024x32_S32x512_S1024x512_1_0_0_1_n_n.contr.Idx) :
    (dot_S1024x32_S32x512_S1024x512_1_0_0_1_n_n.rhsIdx i q 1).val = (i 1).val := by
  unfold DotDims.rhsIdx
  rw [dif_neg (show ¬(1 : Fin S32x512.rank) ∈ dot_S1024x32_S32x512_S1024x512_1_0_0_1_n_n.rhsBatch by decide), dif_pos (show (1 : Fin S32x512.rank) ∈ dot_S1024x32_S32x512_S1024x512_1_0_0_1_n_n.rhsNonContracting by decide)]
  rfl

/-- The scale spread: the product of a [1024,32] by a [32,512] matrix into zero, at (j, p). -/
theorem spread_apply (l : FVec Ideal S1024x32 .f32) (r : FVec Ideal S32x512 .f32) (j : Fin 1024) (p : Fin 512) :
    matmul dot_S1024x32_S32x512_S1024x512_1_0_0_1_n_n none l r (constant (F := Ideal) S1024x512 .f32 0x00000000#32) (ix2 j p)
      = ∑ g : Fin 32, l (ix2 j g) * r (ix2 g p) := by
  simp only [matmul]
  rw [Ideal.matmul_constant_zero_apply, ← Equiv.sum_comp (contrEquiv1 dot_S1024x32_S32x512_S1024x512_1_0_0_1_n_n 32 rfl rfl).symm]
  refine Finset.sum_congr rfl fun k _ => ?_
  have hk := contrEquiv1_symm_val dot_S1024x32_S32x512_S1024x512_1_0_0_1_n_n 32 rfl rfl k
  have el : dot_S1024x32_S32x512_S1024x512_1_0_0_1_n_n.lhsIdx (ix2 j p) ((contrEquiv1 dot_S1024x32_S32x512_S1024x512_1_0_0_1_n_n 32 rfl rfl).symm k) = ix2 j k := funext fun a => Fin.ext (by
    match a with
    | ⟨0, _⟩ => exact lhs_spread_0 _ _
    | ⟨1, _⟩ => exact (lhs_spread_1 _ _).trans hk)
  have er : dot_S1024x32_S32x512_S1024x512_1_0_0_1_n_n.rhsIdx (ix2 j p) ((contrEquiv1 dot_S1024x32_S32x512_S1024x512_1_0_0_1_n_n 32 rfl rfl).symm k) = ix2 k p := funext fun a => Fin.ext (by
    match a with
    | ⟨0, _⟩ => exact (rhs_spread_0 _ _).trans hk
    | ⟨1, _⟩ => exact rhs_spread_1 _ _)
  rw [el, er]

theorem lhs_plane_0 (i : S8x1024.Idx) (q : dot_S8x512_S1024x512_S8x1024_1_1_0_0_n_n.contr.Idx) :
    (dot_S8x512_S1024x512_S8x1024_1_1_0_0_n_n.lhsIdx i q 0).val = (i 0).val := by
  unfold DotDims.lhsIdx
  rw [dif_neg (show ¬(0 : Fin S8x512.rank) ∈ dot_S8x512_S1024x512_S8x1024_1_1_0_0_n_n.lhsBatch by decide), dif_pos (show (0 : Fin S8x512.rank) ∈ dot_S8x512_S1024x512_S8x1024_1_1_0_0_n_n.lhsNonContracting by decide)]
  rfl
theorem lhs_plane_1 (i : S8x1024.Idx) (q : dot_S8x512_S1024x512_S8x1024_1_1_0_0_n_n.contr.Idx) :
    (dot_S8x512_S1024x512_S8x1024_1_1_0_0_n_n.lhsIdx i q 1).val = (q ⟨0, by decide⟩).val :=
  dot_S8x512_S1024x512_S8x1024_1_1_0_0_n_n.lhsIdx_val_of_single rfl i q
theorem rhs_plane_0 (i : S8x1024.Idx) (q : dot_S8x512_S1024x512_S8x1024_1_1_0_0_n_n.contr.Idx) :
    (dot_S8x512_S1024x512_S8x1024_1_1_0_0_n_n.rhsIdx i q 0).val = (i 1).val := by
  unfold DotDims.rhsIdx
  rw [dif_neg (show ¬(0 : Fin S1024x512.rank) ∈ dot_S8x512_S1024x512_S8x1024_1_1_0_0_n_n.rhsBatch by decide), dif_pos (show (0 : Fin S1024x512.rank) ∈ dot_S8x512_S1024x512_S8x1024_1_1_0_0_n_n.rhsNonContracting by decide)]
  rfl
theorem rhs_plane_1 (i : S8x1024.Idx) (q : dot_S8x512_S1024x512_S8x1024_1_1_0_0_n_n.contr.Idx) :
    (dot_S8x512_S1024x512_S8x1024_1_1_0_0_n_n.rhsIdx i q 1).val = (q ⟨0, by decide⟩).val :=
  dot_S8x512_S1024x512_S8x1024_1_1_0_0_n_n.rhsIdx_val_of_single rfl i q

/-- A plane's product: an [8,512] block of x against the [1024,512] scaled nibbles, contracted over the words, into zero, at (a, j). -/
theorem plane_apply {φ₁ φ₂ : FTy} (l : FVec Ideal S8x512 φ₁) (r : FVec Ideal S1024x512 φ₂) (a : Fin 8) (j : Fin 1024) :
    matmul dot_S8x512_S1024x512_S8x1024_1_1_0_0_n_n none l r (constant (F := Ideal) S8x1024 .f32 0x00000000#32) (ix2 a j)
      = ∑ p : Fin 512, l (ix2 a p) * r (ix2 j p) := by
  simp only [matmul]
  rw [Ideal.matmul_constant_zero_apply, ← Equiv.sum_comp (contrEquiv1 dot_S8x512_S1024x512_S8x1024_1_1_0_0_n_n 512 rfl rfl).symm]
  refine Finset.sum_congr rfl fun k _ => ?_
  have hk := contrEquiv1_symm_val dot_S8x512_S1024x512_S8x1024_1_1_0_0_n_n 512 rfl rfl k
  have el : dot_S8x512_S1024x512_S8x1024_1_1_0_0_n_n.lhsIdx (ix2 a j) ((contrEquiv1 dot_S8x512_S1024x512_S8x1024_1_1_0_0_n_n 512 rfl rfl).symm k) = ix2 a k := funext fun b => Fin.ext (by
    match b with
    | ⟨0, _⟩ => exact lhs_plane_0 _ _
    | ⟨1, _⟩ => exact (lhs_plane_1 _ _).trans hk)
  have er : dot_S8x512_S1024x512_S8x1024_1_1_0_0_n_n.rhsIdx (ix2 a j) ((contrEquiv1 dot_S8x512_S1024x512_S8x1024_1_1_0_0_n_n 512 rfl rfl).symm k) = ix2 j k := funext fun b => Fin.ext (by
    match b with
    | ⟨0, _⟩ => exact rhs_plane_0 _ _
    | ⟨1, _⟩ => exact (rhs_plane_1 _ _).trans hk)
  rw [el, er]

theorem lhs_corr_0 (i : S8x1024.Idx) (q : dot_S8x32_S1024x32_S8x1024_1_1_0_0_n_n.contr.Idx) :
    (dot_S8x32_S1024x32_S8x1024_1_1_0_0_n_n.lhsIdx i q 0).val = (i 0).val := by
  unfold DotDims.lhsIdx
  rw [dif_neg (show ¬(0 : Fin S8x32.rank) ∈ dot_S8x32_S1024x32_S8x1024_1_1_0_0_n_n.lhsBatch by decide), dif_pos (show (0 : Fin S8x32.rank) ∈ dot_S8x32_S1024x32_S8x1024_1_1_0_0_n_n.lhsNonContracting by decide)]
  rfl
theorem lhs_corr_1 (i : S8x1024.Idx) (q : dot_S8x32_S1024x32_S8x1024_1_1_0_0_n_n.contr.Idx) :
    (dot_S8x32_S1024x32_S8x1024_1_1_0_0_n_n.lhsIdx i q 1).val = (q ⟨0, by decide⟩).val :=
  dot_S8x32_S1024x32_S8x1024_1_1_0_0_n_n.lhsIdx_val_of_single rfl i q
theorem rhs_corr_0 (i : S8x1024.Idx) (q : dot_S8x32_S1024x32_S8x1024_1_1_0_0_n_n.contr.Idx) :
    (dot_S8x32_S1024x32_S8x1024_1_1_0_0_n_n.rhsIdx i q 0).val = (i 1).val := by
  unfold DotDims.rhsIdx
  rw [dif_neg (show ¬(0 : Fin S1024x32.rank) ∈ dot_S8x32_S1024x32_S8x1024_1_1_0_0_n_n.rhsBatch by decide), dif_pos (show (0 : Fin S1024x32.rank) ∈ dot_S8x32_S1024x32_S8x1024_1_1_0_0_n_n.rhsNonContracting by decide)]
  rfl
theorem rhs_corr_1 (i : S8x1024.Idx) (q : dot_S8x32_S1024x32_S8x1024_1_1_0_0_n_n.contr.Idx) :
    (dot_S8x32_S1024x32_S8x1024_1_1_0_0_n_n.rhsIdx i q 1).val = (q ⟨0, by decide⟩).val :=
  dot_S8x32_S1024x32_S8x1024_1_1_0_0_n_n.rhsIdx_val_of_single rfl i q

/-- The correction's product: the [8,32] group sums against the [1024,32] zero points times scales, contracted over the groups, into zero, at (a, j). -/
theorem corr_apply {φ₁ φ₂ : FTy} (l : FVec Ideal S8x32 φ₁) (r : FVec Ideal S1024x32 φ₂) (a : Fin 8) (j : Fin 1024) :
    matmul dot_S8x32_S1024x32_S8x1024_1_1_0_0_n_n none l r (constant (F := Ideal) S8x1024 .f32 0x00000000#32) (ix2 a j)
      = ∑ g : Fin 32, l (ix2 a g) * r (ix2 j g) := by
  simp only [matmul]
  rw [Ideal.matmul_constant_zero_apply, ← Equiv.sum_comp (contrEquiv1 dot_S8x32_S1024x32_S8x1024_1_1_0_0_n_n 32 rfl rfl).symm]
  refine Finset.sum_congr rfl fun k _ => ?_
  have hk := contrEquiv1_symm_val dot_S8x32_S1024x32_S8x1024_1_1_0_0_n_n 32 rfl rfl k
  have el : dot_S8x32_S1024x32_S8x1024_1_1_0_0_n_n.lhsIdx (ix2 a j) ((contrEquiv1 dot_S8x32_S1024x32_S8x1024_1_1_0_0_n_n 32 rfl rfl).symm k) = ix2 a k := funext fun b => Fin.ext (by
    match b with
    | ⟨0, _⟩ => exact lhs_corr_0 _ _
    | ⟨1, _⟩ => exact (lhs_corr_1 _ _).trans hk)
  have er : dot_S8x32_S1024x32_S8x1024_1_1_0_0_n_n.rhsIdx (ix2 a j) ((contrEquiv1 dot_S8x32_S1024x32_S8x1024_1_1_0_0_n_n 32 rfl rfl).symm k) = ix2 j k := funext fun b => Fin.ext (by
    match b with
    | ⟨0, _⟩ => exact rhs_corr_0 _ _
    | ⟨1, _⟩ => exact (rhs_corr_1 _ _).trans hk)
  rw [el, er]

/-! ## A nibble plane at an index -/

/-- Shifting a word right by 4i, masking with 15 and converting is the value of nibble i. -/
theorem nib_apply (w : IVec S1024x512 32) (s : BitVec 32) (i : Fin 8) (hs : s = BitVec.ofNat 32 (4 * i.val))
    (j : Fin 1024) (p : Fin 512) :
    (sitofp .f32 (andi (shrsi w (broadcast S1024x512 s)) (broadcast S1024x512 15#32)) : FVec Ideal S1024x512 .f32) (ix2 j p)
      = Cert.W4.nibE (w (ix2 j p)) i := by
  subst hs
  have hlt : (BitVec.ofNat 32 (4 * i.val)).toNat < 32 := by
    have := i.isLt
    rw [BitVec.toNat_ofNat]; omega
  show (((IntOp.andi (IntOp.shrsi .vector (w (ix2 j p)) (BitVec.ofNat 32 (4 * i.val))) 15#32).toInt : ℝ) : EReal) = _
  unfold Cert.W4.nibE Cert.W4.nibAt IntOp.andi IntOp.shrsi
  rw [if_pos hlt]

/-- One plane's product at (a, j): the block of x against the plane's nibbles times the spread scales. -/
theorem plane_term (xb : FVec Ideal S8x512 .bf16) (w : IVec S1024x512 32) (sc : FVec Ideal S1024x512 .bf16)
    (s : BitVec 32) (i : Fin 8) (hs : s = BitVec.ofNat 32 (4 * i.val)) (a : Fin 8) (j : Fin 1024) :
    matmul dot_S8x512_S1024x512_S8x1024_1_1_0_0_n_n none (shapeCast S8x512 xb shapeCasts_S8x512_S8x512)
        (mulf (truncf .bf16 (sitofp .f32 (andi (shrsi w (broadcast S1024x512 s)) (broadcast S1024x512 15#32)) : FVec Ideal S1024x512 .f32) bitsLt_bf16_f32) sc)
        (constant (F := Ideal) S8x1024 .f32 0x00000000#32) (ix2 a j)
      = ∑ p : Fin 512, xb (ix2 a p) * (Cert.W4.nibE (w (ix2 j p)) i * sc (ix2 j p)) := by
  rw [shapeCast_self]
  refine (plane_apply _ _ a j).trans ?_
  refine Finset.sum_congr rfl fun p _ => ?_
  exact congrArg (xb (ix2 a p) * ·) (congrArg (· * sc (ix2 j p)) (nib_apply w s i hs j p))

/-! ## The payloads at an index -/

/-- The cast of the packed words to their own shape changes nothing. -/
theorem pay3_eq (v6 : Vec Ideal S1024x512 .i32) : k0_pay3 (F := Ideal) v6 = v6 :=
  shapeCast_self v6 shapeCasts_S1024x512_S1024x512

/-- The spread scales: s'[j, p] = Σ_g s[j, g] · S[g, p]. -/
theorem pay2_apply (v0 : Vec Ideal S1024x32 .f32) (v2 : Vec Ideal S32x512 .f32) (j : Fin 1024) (p : Fin 512) :
    (k0_pay2 v0 v2 : FVec Ideal S1024x512 .bf16) (ix2 j p) = ∑ g : Fin 32, v0 (ix2 j g) * v2 (ix2 g p) := by
  unfold k0_pay2
  rw [shapeCast_self, shapeCast_self]
  exact spread_apply v0 v2 j p

/-- A plane's product over the packed words and the spread scales as the payloads name them. -/
theorem scaled_plane (v0 : Vec Ideal S1024x32 .f32) (v2 : Vec Ideal S32x512 .f32) (v6 : Vec Ideal S1024x512 .i32)
    (xb : FVec Ideal S8x512 .bf16) (s : BitVec 32) (i : Fin 8) (hs : s = BitVec.ofNat 32 (4 * i.val))
    (a : Fin 8) (j : Fin 1024) :
    matmul dot_S8x512_S1024x512_S8x1024_1_1_0_0_n_n none (shapeCast S8x512 xb shapeCasts_S8x512_S8x512)
        (mulf (truncf .bf16 (sitofp .f32 (andi (shrsi (k0_pay3 (F := Ideal) v6) (broadcast S1024x512 s)) (broadcast S1024x512 15#32)) : FVec Ideal S1024x512 .f32) bitsLt_bf16_f32) (k0_pay2 v0 v2))
        (constant (F := Ideal) S8x1024 .f32 0x00000000#32) (ix2 a j)
      = ∑ p : Fin 512, xb (ix2 a p) * (Cert.W4.nibE (v6 (ix2 j p)) i * ∑ g : Fin 32, v0 (ix2 j g) * v2 (ix2 g p)) := by
  refine (plane_term xb _ _ s i hs a j).trans (Finset.sum_congr rfl fun p _ => ?_)
  rw [pay3_eq, pay2_apply]

/-- Planes 0 and 1 added onto zero. -/
theorem pay4_apply (v0 : Vec Ideal S1024x32 .f32) (v2 : Vec Ideal S32x512 .f32) (v6 : Vec Ideal S1024x512 .i32)
    (v16 v27 : Vec Ideal S8x512 .bf16) (a : Fin 8) (j : Fin 1024) :
    (k0_pay4 v0 v2 v6 v16 v27 : FVec Ideal S8x1024 .f32) (ix2 a j)
      = (0 + ∑ p : Fin 512, v16 (ix2 a p) * (Cert.W4.nibE (v6 (ix2 j p)) 0 * ∑ g : Fin 32, v0 (ix2 j g) * v2 (ix2 g p)))
          + ∑ p : Fin 512, v27 (ix2 a p) * (Cert.W4.nibE (v6 (ix2 j p)) 1 * ∑ g : Fin 32, v0 (ix2 j g) * v2 (ix2 g p)) := by
  unfold k0_pay4
  exact congrArg₂ (· + ·) (congrArg₂ (· + ·) Ideal.ofBits_zero_f32 (scaled_plane v0 v2 v6 v16 0#32 0 rfl a j))
    (scaled_plane v0 v2 v6 v27 4#32 1 rfl a j)

/-- Plane 2's scaled nibbles. -/
theorem pay5_apply (v0 : Vec Ideal S1024x32 .f32) (v2 : Vec Ideal S32x512 .f32) (v6 : Vec Ideal S1024x512 .i32)
    (j : Fin 1024) (p : Fin 512) :
    (k0_pay5 v0 v2 v6 : FVec Ideal S1024x512 .bf16) (ix2 j p)
      = Cert.W4.nibE (v6 (ix2 j p)) 2 * ∑ g : Fin 32, v0 (ix2 j g) * v2 (ix2 g p) := by
  unfold k0_pay5
  refine (congrArg₂ (· * ·) (nib_apply (k0_pay3 (F := Ideal) v6) 8#32 2 rfl j p) (pay2_apply v0 v2 j p)).trans ?_
  rw [pay3_eq]

/-- A product of a block of x with scaled values already formed, contracted over the words. -/
theorem formed_plane (xb : FVec Ideal S8x512 .bf16) (y : FVec Ideal S1024x512 .bf16) (a : Fin 8) (j : Fin 1024) :
    matmul dot_S8x512_S1024x512_S8x1024_1_1_0_0_n_n none (shapeCast S8x512 xb shapeCasts_S8x512_S8x512) y
        (constant (F := Ideal) S8x1024 .f32 0x00000000#32) (ix2 a j)
      = ∑ p : Fin 512, xb (ix2 a p) * y (ix2 j p) := by
  rw [shapeCast_self]
  exact plane_apply _ _ a j

/-- Planes 2 to 5 added onto what planes 0 and 1 left; plane 2's scaled nibbles arrive formed. -/
theorem pay6_apply (v5 : FVec Ideal S1024x512 .bf16) (v7 : IVec S1024x512 32) (v30 : FVec Ideal S8x1024 .f32)
    (v37 : FVec Ideal S1024x512 .bf16) (v38 v49 v60 v71 : Vec Ideal S8x512 .bf16) (a : Fin 8) (j : Fin 1024) :
    (k0_pay6 v5 v7 v30 v37 v38 v49 v60 v71 : FVec Ideal S8x1024 .f32) (ix2 a j)
      = (((v30 (ix2 a j) + ∑ p : Fin 512, v38 (ix2 a p) * v37 (ix2 j p))
            + ∑ p : Fin 512, v49 (ix2 a p) * (Cert.W4.nibE (v7 (ix2 j p)) 3 * v5 (ix2 j p)))
          + ∑ p : Fin 512, v60 (ix2 a p) * (Cert.W4.nibE (v7 (ix2 j p)) 4 * v5 (ix2 j p)))
        + ∑ p : Fin 512, v71 (ix2 a p) * (Cert.W4.nibE (v7 (ix2 j p)) 5 * v5 (ix2 j p)) := by
  unfold k0_pay6
  exact congrArg₂ (· + ·) (congrArg₂ (· + ·) (congrArg₂ (· + ·) (congrArg (v30 (ix2 a j) + ·) (formed_plane v38 v37 a j))
    (plane_term v49 v7 v5 12#32 3 rfl a j)) (plane_term v60 v7 v5 16#32 4 rfl a j)) (plane_term v71 v7 v5 20#32 5 rfl a j)

/-- Planes 6 and 7 added, and the correction subtracted; plane 6's nibbles arrive formed. -/
theorem pay1_apply (v5 : FVec Ideal S1024x512 .bf16) (v7 : IVec S1024x512 32) (v74 : FVec Ideal S8x1024 .f32)
    (v78 : IVec S1024x512 32) (v82 v93 : Vec Ideal S8x512 .bf16) (v97 : Vec Ideal S8x32 .f32) (v100 : Vec Ideal S1024x32 .f32)
    (a : Fin 8) (j : Fin 1024) :
    (k0_pay1 v5 v7 v74 v78 v82 v93 v97 v100 : FVec Ideal S8x1024 .f32) (ix2 a j)
      = ((v74 (ix2 a j)
            + ∑ p : Fin 512, v82 (ix2 a p) * ((sitofp .f32 v78 : FVec Ideal S1024x512 .f32) (ix2 j p) * v5 (ix2 j p)))
          + ∑ p : Fin 512, v93 (ix2 a p) * (Cert.W4.nibE (v7 (ix2 j p)) 7 * v5 (ix2 j p)))
        - ∑ g : Fin 32, v97 (ix2 a g) * v100 (ix2 j g) := by
  unfold k0_pay1
  refine congrArg₂ (· - ·) (congrArg₂ (· + ·) (congrArg (v74 (ix2 a j) + ·) (formed_plane v82 _ a j))
    (plane_term v93 v7 v5 28#32 7 rfl a j)) ?_
  rw [shapeCast_self, shapeCast_self]
  exact corr_apply _ _ a j

/-- Plane 6's nibbles, formed ahead of their use. -/
theorem pay7_apply (v7 : IVec S1024x512 32) (j : Fin 1024) (p : Fin 512) :
    (sitofp .f32 (k0_pay7 v7) : FVec Ideal S1024x512 .f32) (ix2 j p) = Cert.W4.nibE (v7 (ix2 j p)) 6 :=
  nib_apply v7 24#32 6 rfl j p

/-! ## The output block at an index -/

/-- THE BLOCK AT AN INDEX: the eight planes added in turn onto zero, the correction subtracted. -/
theorem out0_6_apply (x0 : Vec Ideal S8x4096 .bf16) (x1 : Vec Ideal S8x32 .f32) (x2 : Vec Ideal S1024x512 .i32)
    (x3 x4 : Vec Ideal S1024x32 .f32) (x5 : Vec Ideal S32x512 .f32) (a : Fin 8) (j : Fin 1024) :
    Gen.out0_6 x0 x1 x2 x3 x4 x5 (ix2 a j)
      = Cert.W4.bodyVal (fun i p => x0 (ix2 a (Cert.W4.planeCol i p))) (fun g => x1 (ix2 a g)) (fun p => x2 (ix2 j p))
          (fun g => x3 (ix2 j g)) (fun g => x4 (ix2 j g)) (fun g p => x5 (ix2 g p)) := by
  unfold Gen.out0_6
  rw [View.canon_unit_zero zeros2]
  rw [View.ld_unit_zero (S := S1024x32) zeros2 _ x3, View.ld_unit_zero (S := S1024x32) zeros2 _ x4,
    View.ld_unit_zero (S := S32x512) zeros2 _ x5, View.ld_unit_zero (S := S1024x512) zeros2 _ x2,
    View.ld_unit_zero (S := S8x32) zeros2 _ x1]
  refine (pay1_apply _ _ _ _ _ _ _ _ a j).trans ?_
  rw [pay6_apply, pay4_apply]
  simp only [pay5_apply, pay2_apply, pay3_eq, pay7_apply,
    ld_slice x0 0 _ 0 rfl, ld_slice x0 512 _ 1 rfl, ld_slice x0 1024 _ 2 rfl, ld_slice x0 1536 _ 3 rfl,
    ld_slice x0 2048 _ 4 rfl, ld_slice x0 2560 _ 5 rfl, ld_slice x0 3072 _ 6 rfl, ld_slice x0 3584 _ 7 rfl]
  rfl

end Cert.KernelIdeal.Body

end
-- ==== Proof.KerRead.lean ====
/-
  The kernel's host-prefix terms read at an index, at the ideal values: the rearranged x, the group sums, the padded
  arrays on the unpadded rows, zero point times scale, and the selector.
-/
import proofs.«421893_j46686294507979_3_alg».proof.Proof.Gen.KernelIdeal
import proofs.«421893_j46686294507979_3_alg».proof.Proof.KerTerm
import proofs.«421893_j46686294507979_3_alg».proof.Proof.Spec
import proofs.«421893_j46686294507979_3_alg».proof.Proof.LibWordDiv
import Idealize.ShloMosaic.PureOps.Ideal.Laws
import Idealize.ShloMosaic.Lib.ValueIdx
import Idealize.ShloMosaic.Lib.Pipeline.Value
import Idealize.ShloMosaic.Lib.KernelVsHost

noncomputable section

namespace Cert.KernelIdeal.Read

open Cert.KernelIdeal Cert.KernelIdeal.Gen Idealize.ShloMosaic Idealize.ShloMosaic.ValueIdx

/-! ## Each word's group, and the two sides of the selector's comparison -/

/-- Floor division of a row of words by a scalar word is, at each position, the one-element floor division. -/
theorem floorDivBy_apply (v : IVec S1x512 32) (d : IVec S_ 32) (j : S1x512.Idx) :
    Term.floorDivBy v d j = Cert.LibWordDiv.floorDivW (v j) (d Cert.LibWordDiv.i0) :=
  Cert.LibWordDiv.floorDivide_apply Facts₀.bcast_S_S1x512 v d j

/-- Each word's group at position p is p / 16, as a word: the position is a word below 2³¹ and the divisor is 16. -/
theorem wordGroup_apply (p : Fin 512) : Term.wordGroup (ix2 (0 : Fin 1) p) = BitVec.ofNat 32 (p.val / 16) := by
  unfold Term.wordGroup
  rw [floorDivBy_apply]
  have hv : broadcastInDim S1x512 ![1] Facts₀.bcast_S512_S1x512_1 (iotaInDim S512 32 0) (ix2 (0 : Fin 1) p)
      = BitVec.ofNat 32 p.val := by
    refine (broadcastInDim_apply _ _ _ _ (ix1 p) (fun a => ?_)).trans rfl
    match a with
    | ⟨0, _⟩ => rfl
  rw [hv]
  have hp := p.isLt
  have h1 : (BitVec.ofNat 32 p.val).toNat = p.val := Cert.LibWordDiv.toNat_ofNat_of_lt _ (by omega)
  rw [Cert.LibWordDiv.floorDivW_eq _ _ (by rw [h1]; omega) (by decide) (by decide), h1]
  rfl

/-- The row iota laid along the columns reads, at (g, p), the word g. -/
theorem selRow_apply (g : Fin 32) (p : Fin 512) :
    broadcastInDim S32x512 ![0, 1] Facts₀.bcast_S32x1_S32x512_0_1
      (broadcastInDim S32x1 ![0] Facts₀.bcast_S32_S32x1_0 (iotaInDim S32 32 0)) (ix2 g p) = BitVec.ofNat 32 g.val := by
  refine (broadcastInDim_apply _ _ _ _ (ix2 g (0 : Fin 1)) (fun a => ?_)).trans ?_
  · match a with
    | ⟨0, _⟩ => rfl
    | ⟨1, _⟩ => rfl
  refine (broadcastInDim_apply _ _ _ _ (ix1 g) (fun a => ?_)).trans rfl
  match a with
  | ⟨0, _⟩ => rfl

/-- The row of word groups laid down the rows reads, at (g, p), the word p / 16. -/
theorem selCol_apply (g : Fin 32) (p : Fin 512) :
    broadcastInDim S32x512 ![0, 1] Facts₀.bcast_S1x512_S32x512_0_1 Term.wordGroup (ix2 g p)
      = BitVec.ofNat 32 (p.val / 16) := by
  refine (broadcastInDim_apply _ _ _ _ (ix2 (0 : Fin 1) p) (fun a => ?_)).trans (wordGroup_apply p)
  match a with
  | ⟨0, _⟩ => rfl
  | ⟨1, _⟩ => rfl

/-! ## The zero points: padding, the nibble of a word, and the three operands of the unpacking -/

/-- The padded zero-point words on an unpadded row are the words themselves. -/
theorem qzPad_apply (qz : IVec S11008x4 32) (o : Fin 11008) (w : Fin 4) :
    Term.qzPad qz (ix2 (Cert.W4.padRow o) w) = qz (ix2 o w) := by
  unfold Term.qzPad
  refine pad_apply_of_inside _ _ _ qz _ _ _ _ (ix2 o w) (fun a => ?_)
  match a with
  | ⟨0, _⟩ => show o.val = 0 + o.val * (0 + 1); omega
  | ⟨1, _⟩ => show w.val = 0 + w.val * (0 + 1); omega

/-- Shifting a word right (arithmetically) by the word i · 4, i below 8, and masking with 15 takes its nibble i:
    the amount 4 i is below the width, so the shift is the plain one. -/
theorem nib_word (w : BitVec 32) (i : Fin 8) :
    IntOp.andi (IntOp.shrsi .host w (IntOp.muli (BitVec.ofNat 32 i.val) 4#32)) 15#32 = Cert.W4.nibAt w i := by
  have hs : IntOp.muli (BitVec.ofNat 32 i.val) 4#32 = BitVec.ofNat 32 (4 * i.val) := by
    fin_cases i <;> rfl
  have hlt : (BitVec.ofNat 32 (4 * i.val)).toNat < 32 := by
    fin_cases i <;> decide
  rw [hs]
  unfold IntOp.shrsi IntOp.andi Cert.W4.nibAt
  rw [if_pos hlt]

/-- The eight shift amounts: entry i is the word i times the word 4. -/
theorem shifts_apply (i : Fin 8) : Term.shifts (ix1 i) = IntOp.muli (BitVec.ofNat 32 i.val) 4#32 := by
  unfold Term.shifts muli
  refine congrArg (IntOp.muli (BitVec.ofNat 32 i.val)) ?_
  exact (broadcastInDim_apply _ _ _ (ix1 i) ix0 (fun a => a.elim0)).trans rfl

/-- The padded zero-point words laid along a new last axis of eight read, at (r, w, i), the word at (r, w). -/
theorem zpWords_apply (qz : IVec S11008x4 32) (r : Fin 11264) (w : Fin 4) (i : Fin 8) :
    broadcastInDim S11264x4x8 ![0, 1, 2] Facts₀.bcast_S11264x4x1_S11264x4x8_0_1_2
      (broadcastInDim S11264x4x1 ![0, 1] Facts₀.bcast_S11264x4_S11264x4x1_0_1 (Term.qzPad qz)) (ix3 r w i)
      = Term.qzPad qz (ix2 r w) := by
  refine (broadcastInDim_apply _ _ _ _ (ix3 r w (0 : Fin 1)) (fun a => ?_)).trans ?_
  · match a with
    | ⟨0, _⟩ => rfl
    | ⟨1, _⟩ => rfl
    | ⟨2, _⟩ => rfl
  refine broadcastInDim_apply _ _ _ _ (ix2 r w) (fun a => ?_)
  match a with
  | ⟨0, _⟩ => rfl
  | ⟨1, _⟩ => rfl

/-- The shift amounts laid along the last axis read, at (r, w, i), amount i. -/
theorem zpShift_apply (r : Fin 11264) (w : Fin 4) (i : Fin 8) :
    broadcastInDim S11264x4x8 ![0, 1, 2] Facts₀.bcast_S1x1x8_S11264x4x8_0_1_2
      (broadcastInDim S1x1x8 ![2] Facts₀.bcast_S8_S1x1x8_2 Term.shifts) (ix3 r w i) = Term.shifts (ix1 i) := by
  refine (broadcastInDim_apply _ _ _ _ (ix3 (0 : Fin 1) (0 : Fin 1) i) (fun a => ?_)).trans ?_
  · match a with
    | ⟨0, _⟩ => rfl
    | ⟨1, _⟩ => rfl
    | ⟨2, _⟩ => rfl
  refine broadcastInDim_apply _ _ _ _ (ix1 i) (fun a => ?_)
  match a with
  | ⟨0, _⟩ => rfl

/-- The mask: the word 15 everywhere. -/
theorem zpMask_apply (j : S11264x4x8.Idx) :
    broadcastInDim S11264x4x8 ![] Facts₀.bcast_S_S11264x4x8 (constantI S_ 32 15#32) j = 15#32 :=
  (broadcastInDim_apply _ _ _ j ix0 (fun a => a.elim0)).trans rfl

/-- The unpacked zero points as floats, at an unpadded row o and group g: nibble g mod 8 of word g / 8 of row o,
    converted exactly. -/
theorem zpF_apply (qz : IVec S11008x4 32) (o : Fin 11008) (g : Fin 32) :
    Term.zpF (F := Ideal) qz (ix2 (Cert.W4.padRow o) g) = Cert.W4.zpE qz o g := by
  unfold Term.zpF sitofp
  refine (congrArg (fun b : BitVec 32 => (((b.toInt : ℝ) : EReal)))
    (?_ : _ = Cert.W4.nibAt (qz (ix2 o (Cert.W4.zwordOf g))) (Cert.W4.znibOf g))).trans rfl
  -- the flattening [11264, 4, 8] → [11264, 32] read at (r, g) is the operand at (r, g / 8, g mod 8)
  refine (shapeCast_apply _ _ _ (ix3 (Cert.W4.padRow o) (Cert.W4.zwordOf g) (Cert.W4.znibOf g)) ?_).trans ?_
  · rw [Shape.rowMajor_val_three, Shape.rowMajor_val_two]
    show (o.val * 4 + g.val / 8) * 8 + g.val % 8 = o.val * 32 + g.val
    omega
  simp only [andi, Host.shrsi]
  rw [zpWords_apply, zpShift_apply, zpMask_apply, qzPad_apply, shifts_apply, nib_word]

theorem xperm_apply (x : FVec Ideal S8x4096 .f32) (a : Fin 8) (i : Fin 8) (p : Fin 512) :
    Term.xperm (F := Ideal) x (ix2 a (Cert.W4.planeCol i p)) = x (ix2 a (Cert.W4.colOf i p)) := by
  unfold Term.xperm
  rw [truncf_apply]
  -- the flattening [8, 8, 512] → [8, 4096] read at (a, 512 i + p) is the operand at (a, i, p)
  refine (shapeCast_apply _ _ _ (ix3 a i p) ?_).trans ?_
  · rw [Shape.rowMajor_val_three, Shape.rowMajor_val_two]
    show (a.val * 8 + i.val) * 512 + p.val = a.val * 4096 + (512 * i.val + p.val)
    omega
  -- the exchange of the last two axes read at (a, i, p) is the operand at (a, p, i)
  refine (transpose_apply _ _ _ _ (ix3 a p i) (fun b => ?_)).trans ?_
  · match b with
    | ⟨0, _⟩ => rfl
    | ⟨1, _⟩ => rfl
    | ⟨2, _⟩ => rfl
  -- the splitting [8, 4096] → [8, 512, 8] read at (a, p, i) is the operand at (a, 8 p + i)
  refine shapeCast_apply _ _ _ (ix2 a (Cert.W4.colOf i p)) ?_
  rw [Shape.rowMajor_val_three, Shape.rowMajor_val_two]
  show a.val * 4096 + (8 * p.val + i.val) = (a.val * 512 + p.val) * 8 + i.val
  omega

theorem xsum_apply (x : FVec Ideal S8x4096 .f32) (a : Fin 8) (g : Fin 32) :
    Term.xsum (F := Ideal) x (ix2 a g) = Cert.W4.xsumE x a g := by
  have hR : S8x32x128.Reduces [2] S8x32 := by decide
  unfold Term.xsum Host.reduceAdd
  -- a host sum over one axis: the initial value plus the sum over that axis's coordinates
  refine (Ideal.hostReduceAdd_single _ hR _ _ (ix2 a g)).trans ?_
  unfold Cert.W4.xsumE
  congr 1
  · -- the initial value is the f32 word zero
    exact Ideal.ofBits_zero_f32
  · refine Finset.sum_congr rfl (fun t _ => ?_)
    -- the splitting [8, 4096] → [8, 32, 128] read at (a, g, t) is the operand at (a, 128 g + t)
    refine shapeCast_apply _ _ _ (ix2 a (Cert.W4.groupCol g t)) ?_
    rw [Shape.rowMajor_val_three, Shape.rowMajor_val_two]
    show a.val * 4096 + (128 * g.val + t.val) = (a.val * 32 + g.val) * 128 + t.val
    omega

theorem qwPad_apply (qw : IVec S11008x512 32) (o : Fin 11008) (p : Fin 512) :
    Term.qwPad qw (ix2 (Cert.W4.padRow o) p) = qw (ix2 o p) := by
  unfold Term.qwPad
  refine pad_apply_of_inside _ _ _ qw _ _ _ _ (ix2 o p) (fun a => ?_)
  match a with
  | ⟨0, _⟩ => show o.val = 0 + o.val * (0 + 1); omega
  | ⟨1, _⟩ => show p.val = 0 + p.val * (0 + 1); omega

theorem scPad_apply (sc : FVec Ideal S11008x32 .f32) (o : Fin 11008) (g : Fin 32) :
    Term.scPad (F := Ideal) sc (ix2 (Cert.W4.padRow o) g) = sc (ix2 o g) := by
  unfold Term.scPad
  refine pad_apply_of_inside _ _ _ sc _ _ _ _ (ix2 o g) (fun a => ?_)
  match a with
  | ⟨0, _⟩ => show o.val = 0 + o.val * (0 + 1); omega
  | ⟨1, _⟩ => show g.val = 0 + g.val * (0 + 1); omega

theorem zsF_apply (qz : IVec S11008x4 32) (sc : FVec Ideal S11008x32 .f32) (o : Fin 11008) (g : Fin 32) :
    Term.zsF (F := Ideal) qz sc (ix2 (Cert.W4.padRow o) g) = Cert.W4.zpE qz o g * sc (ix2 o g) := by
  unfold Term.zsF
  rw [mulf_apply, zpF_apply, scPad_apply]

theorem sel_apply (g : Fin 32) (p : Fin 512) :
    Term.sel (F := Ideal) (ix2 g p) = Cert.W4.onehot g p := by
  have h : Term.sel (F := Ideal) (ix2 g p)
      = (((IntOp.cmpi .eq (BitVec.ofNat 32 g.val) (BitVec.ofNat 32 (p.val / 16))).toNat : ℝ) : EReal) := by
    unfold Term.sel uitofp cmpi
    rw [selRow_apply, selCol_apply]
    rfl
  rw [h]
  unfold Cert.W4.onehot
  have hg := g.isLt
  have hp := p.isLt
  by_cases e : g.val = p.val / 16
  · -- equal values: the comparison is the one bit, whose value is 1
    rw [if_pos e, StableHlo.Predicate.cmpi_eq_iff.mpr (by rw [e])]
    simp
  · -- different values below 2³²: different words, the comparison is the zero bit
    have hne : ¬ IntOp.cmpi .eq (BitVec.ofNat 32 g.val) (BitVec.ofNat 32 (p.val / 16)) = 1#1 := fun hc => e (by
      have := congrArg BitVec.toNat (StableHlo.Predicate.cmpi_eq_iff.mp hc)
      rw [Cert.LibWordDiv.toNat_ofNat_of_lt _ (by omega), Cert.LibWordDiv.toNat_ofNat_of_lt _ (by omega)] at this
      exact this)
    rw [if_neg e, eq_zero_of_ne_one hne]
    simp

end Cert.KernelIdeal.Read

end
-- ==== Proof.KerBridge.lean ====
/-
  The kernel program's result array is the plane-by-plane arrangement of the four argument arrays: the body's
  output block at an entry (KerBody) over the host-prefix terms' blocks (KerRead), at the entry's tile and position
  inside the tile — row 1024·(o / 1024) + o % 1024 of the padded arrays is output row o.
-/
import proofs.«421893_j46686294507979_3_alg».proof.Proof.KerBody
import proofs.«421893_j46686294507979_3_alg».proof.Proof.KerRead
import proofs.«421893_j46686294507979_3_alg».proof.Proof.KerValue
import proofs.«421893_j46686294507979_3_alg».proof.Proof.Spec

noncomputable section

namespace Cert.KernelIdeal.Bridge

open Cert.KernelIdeal Cert.KernelIdeal.Gen Idealize.ShloMosaic Idealize.ShloMosaic.ValueIdx

/-- An output row's tile and position inside it give the row back. -/
theorem tileRow_eq (o : Fin 11008) : Cert.W4.tileRow (Cert.W4.tileOf o) (Cert.W4.inTile o) = Cert.W4.padRow o :=
  Fin.ext (by show 1024 * (o.val / 1024) + o.val % 1024 = o.val; omega)

/-- A tile's block read at (j, p) is the array at that tile's row j. -/
theorem tileBlock_apply {α : Type} {n : Nat} (A : (⟨2, ![11264, n]⟩ : Shape).Idx → α) (t : Fin 11) (j : Fin 1024)
    (p : Fin n) : Val.tileBlock A t (ix2 j p) = A (ix2 (Cert.W4.tileRow t j) p) := rfl

theorem kres_eq_K (x : FVec Ideal S8x4096 .f32) (qw : IVec S11008x512 32) (qz : IVec S11008x4 32)
    (sc : FVec Ideal S11008x32 .f32) :
    Val.kres (F := Ideal) x qw qz sc = Cert.W4.K x qw qz sc := by
  funext j
  obtain ⟨a, o, rfl⟩ : ∃ (a : Fin 8) (o : Fin 11008), j = ix2 a o := ⟨j 0, j 1, eq_ix2 j⟩
  show Gen.out0_6 (Term.xperm x) (Term.xsum x) (Val.tileBlock (Term.qwPad qw) (Cert.W4.tileOf o))
      (Val.tileBlock (Term.scPad sc) (Cert.W4.tileOf o)) (Val.tileBlock (Term.zsF qz sc) (Cert.W4.tileOf o)) (Term.sel (F := Ideal))
      (ix2 a (Cert.W4.inTile o)) = Cert.W4.Kat x qw qz sc a o
  rw [Body.out0_6_apply]
  unfold Cert.W4.Kat
  have e1 : (fun (i : Fin 8) (p : Fin 512) => Term.xperm (F := Ideal) x (ix2 a (Cert.W4.planeCol i p)))
      = fun i p => x (ix2 a (Cert.W4.colOf i p)) := by
    funext i p; exact Read.xperm_apply x a i p
  have e2 : (fun (g : Fin 32) => Term.xsum (F := Ideal) x (ix2 a g)) = fun g => Cert.W4.xsumE x a g := by
    funext g; exact Read.xsum_apply x a g
  have e3 : (fun (p : Fin 512) => Val.tileBlock (Term.qwPad qw) (Cert.W4.tileOf o) (ix2 (Cert.W4.inTile o) p))
      = fun p => qw (ix2 o p) := by
    funext p; rw [tileBlock_apply, tileRow_eq]; exact Read.qwPad_apply qw o p
  have e4 : (fun (g : Fin 32) => Val.tileBlock (Term.scPad (F := Ideal) sc) (Cert.W4.tileOf o) (ix2 (Cert.W4.inTile o) g))
      = fun g => sc (ix2 o g) := by
    funext g; rw [tileBlock_apply, tileRow_eq]; exact Read.scPad_apply sc o g
  have e5 : (fun (g : Fin 32) => Val.tileBlock (Term.zsF (F := Ideal) qz sc) (Cert.W4.tileOf o) (ix2 (Cert.W4.inTile o) g))
      = fun g => Cert.W4.zpE qz o g * sc (ix2 o g) := by
    funext g; rw [tileBlock_apply, tileRow_eq]; exact Read.zsF_apply qz sc o g
  have e6 : (fun (g : Fin 32) (p : Fin 512) => Term.sel (F := Ideal) (ix2 g p)) = Cert.W4.onehot := by
    funext g p; exact Read.sel_apply g p
  rw [e1, e2, e3, e4, e5, e6]

end Cert.KernelIdeal.Bridge

end
-- ==== Proof.lean ====
/-
  A 4-bit grouped-quantised matrix product on the TensorCore against its dense reference, over the extended reals.

  The reference unpacks the weights and zero points nibble by nibble, spreads each group's zero point and scale over
  the group's 128 columns, forms (q − z)·s and contracts with x: out[a, o] = Σ_k x[a, k]·((q[o, k] − z[o, k/128])·s[o, k/128]).
  The kernel never forms the dequantised weights: for each of the eight nibble planes it multiplies the plane's
  4-bit values by the scales (spread over words by a product with a 0/1 selector) and contracts with the matching
  columns of x, rearranged plane by plane beforehand; the zero points enter once, as a product of x's group sums with
  z·s, subtracted at the end; the output rows are padded to eleven tiles of 1024 and the padding cut off. At the ideal
  values format changes are identities and the nibbles are exact integers, so the two are the same sum regrouped by
  distributivity — valid because the precondition makes x and the scales finite.

  The three frames: the two kernel programs' by their frame certificates; the reference's by its run with the result
  dropped. The idealization rewrote nothing, so its preservation claim is trivial. The algebraic claim: both runs end
  with the result array at the column-by-column sum G of the shared arguments.
-/
import proofs.«421893_j46686294507979_3_alg».proof.Defs
import proofs.«421893_j46686294507979_3_alg».proof.Proof.Gen.Kernel
import proofs.«421893_j46686294507979_3_alg».proof.Proof.Gen.Kernel.Frame
import proofs.«421893_j46686294507979_3_alg».proof.Proof.Gen.KernelIdeal
import proofs.«421893_j46686294507979_3_alg».proof.Proof.Gen.KernelIdeal.Frame
import proofs.«421893_j46686294507979_3_alg».proof.Proof.Gen.ReferenceIdeal
import proofs.«421893_j46686294507979_3_alg».proof.Proof.Gen.Pre_finite_inputs
import proofs.«421893_j46686294507979_3_alg».proof.Proof.Spec
import proofs.«421893_j46686294507979_3_alg».proof.Proof.Algebra
import proofs.«421893_j46686294507979_3_alg».proof.Proof.Finite
import proofs.«421893_j46686294507979_3_alg».proof.Proof.RefRun
import proofs.«421893_j46686294507979_3_alg».proof.Proof.RefRead
import proofs.«421893_j46686294507979_3_alg».proof.Proof.KerValue
import proofs.«421893_j46686294507979_3_alg».proof.Proof.KerBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Run.run (F := Ideal) m ρ)

/-- Both programs, from memories agreeing on the arguments, end with the result at the same array: the kernel's
    plane-by-plane value is the column-by-column sum because x and the scales are finite, and the reference's composed
    term is that sum of its own (equal) arguments. -/
theorem algebraic : Cert.algebraic_KernelIdeal_ReferenceIdeal := by
  intro m ρ m' ρ' hpre hagree
  refine ⟨_, Cert.KernelIdeal.Val.run (F := Ideal) m ρ, ?_⟩
  refine (θ_run Cert.ReferenceIdeal.defs _ _).mono (fun _ h c => ⟨(h c).1.trans ?_, (h c).2⟩)
    (Cert.ReferenceIdeal.Run.run (F := Ideal) m' ρ')
  obtain ⟨hx, hs⟩ := Cert.FiniteInputs.finite_of_pre _ _ _ _ (hpre c)
  rw [(hagree c).1, (hagree c).2.1, (hagree c).2.2.1, (hagree c).2.2.2, Cert.ReferenceIdeal.Read.res_eq,
    Cert.KernelIdeal.Bridge.kres_eq_K, Cert.W4.K_eq_G _ _ _ _ hx hs]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
